-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S5 : Shape := ⟨1, ![5]⟩
abbrev S1x128 : Shape := ⟨2, ![1, 128]⟩
abbrev S1x1x512x1024 : Shape := ⟨4, ![1, 1, 512, 1024]⟩
abbrev S1x1x512 : Shape := ⟨3, ![1, 1, 512]⟩
abbrev S1x1x512x1 : Shape := ⟨4, ![1, 1, 512, 1]⟩
abbrev S1x1x1 : Shape := ⟨3, ![1, 1, 1]⟩
abbrev S1x1x1x1 : Shape := ⟨4, ![1, 1, 1, 1]⟩
abbrev S1x5 : Shape := ⟨2, ![1, 5]⟩
abbrev S_ : Shape := ⟨0, ![]⟩

abbrev nBuf : Space → Nat
  | .hbm => 24
  | .vmem => 8
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S5, .f32⟩
  | .hbm, ⟨3, _⟩ => ⟨S16x1x1024x1024, .f32⟩
  | .hbm, ⟨4, _⟩ => ⟨S1x128, .f32⟩
  | .hbm, ⟨5, _⟩ => ⟨S1x128, .f32⟩
  | .hbm, ⟨6, _⟩ => ⟨S1x5, .f32⟩
  | .hbm, ⟨7, _⟩ => ⟨S5, .f32⟩
  | .hbm, ⟨8, _⟩ => ⟨S1x5, .f32⟩
  | .hbm, ⟨9, _⟩ => ⟨S5, .f32⟩
  | .hbm, ⟨10, _⟩ => ⟨S_, .f32⟩
  | .hbm, ⟨11, _⟩ => ⟨S5, .f32⟩
  | .hbm, ⟨12, _⟩ => ⟨S5, .f32⟩
  | .hbm, ⟨13, _⟩ => ⟨S_, .f32⟩
  | .hbm, ⟨14, _⟩ => ⟨S5, .f32⟩
  | .hbm, ⟨15, _⟩ => ⟨S5, .i1⟩
  | .hbm, ⟨16, _⟩ => ⟨S5, .f32⟩
  | .hbm, ⟨17, _⟩ => ⟨S_, .f32⟩
  | .hbm, ⟨18, _⟩ => ⟨S_, .f32⟩
  | .hbm, ⟨19, _⟩ => ⟨S5, .f32⟩
  | .hbm, ⟨20, _⟩ => ⟨S5, .f32⟩
  | .hbm, ⟨21, _⟩ => ⟨S5, .f32⟩
  | .hbm, ⟨22, _⟩ => ⟨S_, .f32⟩
  | .hbm, ⟨23, _⟩ => ⟨S_, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x128, .f32⟩
  | .local _ .vmem, ⟨7, _⟩ => ⟨S1x128, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x128_S1x128_0_0 : ∀ a, (![0, 0] : Fin 2 → Nat) a + S1x128.size a ≤ S1x128.size a
  h_S1x128 : 0 < S1x128.numel
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  iota_S1x128_d1_w32 : S1x128.Iotas .tc 32 [1]
  natLt_1_32 : 1 < 32
  reduces_S1x1x512x1024_S1x1x512 : S1x1x512x1024.Reduces [3] S1x1x512
  shapeCasts_S1x1x512_S1x1x512x1 : S1x1x512.ShapeCasts S1x1x512x1
  reduces_S1x1x512x1_S1x1x1 : S1x1x512x1.Reduces [2] S1x1x1
  shapeCasts_S1x1x1_S1x1x1x1 : S1x1x1.ShapeCasts S1x1x1x1
  inpos_S1x1x1x1_p0_0_0_0 : ∀ a, (![0, 0, 0, 0] : Fin 4 → Nat) a < S1x1x1x1.size a
  shapeCasts_S1x128_S1x128 : S1x128.ShapeCasts S1x128
  slices_S1x128_S1x5_0_0 : S1x128.Slices ![0, 0] S1x5
  shapeCasts_S1x5_S5 : S1x5.ShapeCasts S5
  bcast_S_S5 : S_.BroadcastsInDim S5 (![] : Fin 0 → Fin S5.rank)
  reducesTo_S5_S_d0 : S5.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S16x1x1024x1024.size a
  hwx0_0 : ∀ i : grid0.Coords, EltTy.bits .f32 = 32 ∨ (Rect.block (s := S16x1x1024x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1024.size a ≤ S16x1x1024x1024.size a
  hwx0_1 : ∀ i : grid0.Coords, EltTy.bits .f32 = 32 ∨ (Rect.block (s := S16x1x1024x1024) S1x1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x1024.size a ≤ S16x1x1024x1024.size a
  hwx0_2 : ∀ i : grid0.Coords, EltTy.bits .f32 = 32 ∨ (Rect.block (s := S16x1x1024x1024) S1x1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S1 : Shape := ⟨1, ![1]⟩
abbrev S5 : Shape := ⟨1, ![5]⟩

abbrev nBuf : Space → Nat
  | .hbm => 178
  | .vmem => 0
  | .smem => 0
  | _ => 0

abbrev hbmTy0_0 (i : Nat) : BufTy := match i % 128 with
  | 0 => ⟨S16x1x1024x1024, .f32⟩
  | 1 => ⟨S16x1x1024x1024, .f32⟩
  | 2 => ⟨S16x1x1024x1024, .f32⟩
  | 3 => ⟨S16x1x1024x1024, .f32⟩
  | 4 => ⟨S_, .i32⟩
  | 5 => ⟨S16x1x1024x1024, .i32⟩
  | 6 => ⟨S_, .f32⟩
  | 7 => ⟨S16x1x1024x1024, .f32⟩
  | 8 => ⟨S16x1x1024x1024, .i1⟩
  | 9 => ⟨S_, .f32⟩
  | 10 => ⟨S16x1x1024x1024, .f32⟩
  | 11 => ⟨S16x1x1024x1024, .i1⟩
  | 12 => ⟨S16x1x1024x1024, .i1⟩
  | 13 => ⟨S_, .i32⟩
  | 14 => ⟨S16x1x1024x1024, .i32⟩
  | 15 => ⟨S16x1x1024x1024, .i32⟩
  | 16 => ⟨S16x1x1024x1024, .i32⟩
  | 17 => ⟨S_, .i32⟩
  | 18 => ⟨S_, .i32⟩
  | 19 => ⟨S_, .f32⟩
  | 20 => ⟨S_, .f32⟩
  | 21 => ⟨S16x1x1024x1024, .f32⟩
  | 22 => ⟨S16x1x1024x1024, .f32⟩
  | 23 => ⟨S_, .f32⟩
  | 24 => ⟨S_, .f32⟩
  | 25 => ⟨S_, .i32⟩
  | 26 => ⟨S_, .i32⟩
  | 27 => ⟨S_, .f32⟩
  | 28 => ⟨S_, .i32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16x1x1024x1024, .f32⟩
  | 38 => ⟨S16x1x1024x1024, .i1⟩
  | 39 => ⟨S_, .f32⟩
  | 40 => ⟨S16x1x1024x1024, .f32⟩
  | 41 => ⟨S16x1x1024x1024, .i1⟩
  | 42 => ⟨S16x1x1024x1024, .i1⟩
  | 43 => ⟨S_, .i32⟩
  | 44 => ⟨S16x1x1024x1024, .i32⟩
  | 45 => ⟨S16x1x1024x1024, .i32⟩
  | 46 => ⟨S16x1x1024x1024, .i32⟩
  | 47 => ⟨S_, .i32⟩
  | 48 => ⟨S_, .i32⟩
  | 49 => ⟨S_, .f32⟩
  | 50 => ⟨S_, .f32⟩
  | 51 => ⟨S16x1x1024x1024, .f32⟩
  | 52 => ⟨S16x1x1024x1024, .f32⟩
  | 53 => ⟨S_, .f32⟩
  | 54 => ⟨S_, .f32⟩
  | 55 => ⟨S_, .i32⟩
  | 56 => ⟨S_, .i32⟩
  | 57 => ⟨S_, .f32⟩
  | 58 => ⟨S_, .i32⟩
  | 59 => ⟨S_, .i1⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S16x1x1024x1024, .f32⟩
  | 68 => ⟨S16x1x1024x1024, .i1⟩
  | 69 => ⟨S_, .f32⟩
  | 70 => ⟨S16x1x1024x1024, .f32⟩
  | 71 => ⟨S16x1x1024x1024, .i1⟩
  | 72 => ⟨S16x1x1024x1024, .i1⟩
  | 73 => ⟨S_, .i32⟩
  | 74 => ⟨S16x1x1024x1024, .i32⟩
  | 75 => ⟨S16x1x1024x1024, .i32⟩
  | 76 => ⟨S16x1x1024x1024, .i32⟩
  | 77 => ⟨S_, .i32⟩
  | 78 => ⟨S_, .i32⟩
  | 79 => ⟨S_, .f32⟩
  | 80 => ⟨S_, .f32⟩
  | 81 => ⟨S16x1x1024x1024, .f32⟩
  | 82 => ⟨S16x1x1024x1024, .f32⟩
  | 83 => ⟨S_, .f32⟩
  | 84 => ⟨S_, .f32⟩
  | 85 => ⟨S_, .i32⟩
  | 86 => ⟨S_, .i32⟩
  | 87 => ⟨S_, .f32⟩
  | 88 => ⟨S_, .i32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S16x1x1024x1024, .f32⟩
  | 98 => ⟨S16x1x1024x1024, .i1⟩
  | 99 => ⟨S_, .f32⟩
  | 100 => ⟨S16x1x1024x1024, .f32⟩
  | 101 => ⟨S16x1x1024x1024, .i1⟩
  | 102 => ⟨S16x1x1024x1024, .i1⟩
  | 103 => ⟨S_, .i32⟩
  | 104 => ⟨S16x1x1024x1024, .i32⟩
  | 105 => ⟨S16x1x1024x1024, .i32⟩
  | 106 => ⟨S16x1x1024x1024, .i32⟩
  | 107 => ⟨S_, .i32⟩
  | 108 => ⟨S_, .i32⟩
  | 109 => ⟨S_, .f32⟩
  | 110 => ⟨S_, .f32⟩
  | 111 => ⟨S16x1x1024x1024, .f32⟩
  | 112 => ⟨S16x1x1024x1024, .f32⟩
  | 113 => ⟨S_, .f32⟩
  | 114 => ⟨S_, .f32⟩
  | 115 => ⟨S_, .i32⟩
  | 116 => ⟨S_, .i32⟩
  | 117 => ⟨S_, .f32⟩
  | 118 => ⟨S_, .i32⟩
  | 119 => ⟨S_, .i1⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S16x1x1024x1024, .f32⟩
  | _ => ⟨S16x1x1024x1024, .f32⟩

abbrev hbmTy0_1 (i : Nat) : BufTy := match i % 128 with
  | 0 => ⟨S16x1x1024x1024, .i1⟩
  | 1 => ⟨S_, .f32⟩
  | 2 => ⟨S16x1x1024x1024, .f32⟩
  | 3 => ⟨S16x1x1024x1024, .i1⟩
  | 4 => ⟨S16x1x1024x1024, .i1⟩
  | 5 => ⟨S_, .i32⟩
  | 6 => ⟨S16x1x1024x1024, .i32⟩
  | 7 => ⟨S16x1x1024x1024, .i32⟩
  | 8 => ⟨S16x1x1024x1024, .i32⟩
  | 9 => ⟨S_, .i32⟩
  | 10 => ⟨S_, .i32⟩
  | 11 => ⟨S_, .f32⟩
  | 12 => ⟨S_, .f32⟩
  | 13 => ⟨S16x1x1024x1024, .f32⟩
  | 14 => ⟨S16x1x1024x1024, .f32⟩
  | 15 => ⟨S_, .f32⟩
  | 16 => ⟨S_, .f32⟩
  | 17 => ⟨S_, .i32⟩
  | 18 => ⟨S_, .i32⟩
  | 19 => ⟨S_, .f32⟩
  | 20 => ⟨S_, .i32⟩
  | 21 => ⟨S_, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S16x1x1024x1024, .f32⟩
  | 35 => ⟨S_, .f32⟩
  | 36 => ⟨S16x1x1024x1024, .f32⟩
  | 37 => ⟨S16x1x1024x1024, .f32⟩
  | 38 => ⟨S_, .f32⟩
  | 39 => ⟨S16x1x1024x1024, .f32⟩
  | 40 => ⟨S16x1x1024x1024, .f32⟩
  | 41 => ⟨S_, .f32⟩
  | 42 => ⟨S16x1x1024x1024, .f32⟩
  | 43 => ⟨S16x1x1024x1024, .f32⟩
  | 44 => ⟨S1, .f32⟩
  | 45 => ⟨S1, .f32⟩
  | 46 => ⟨S1, .f32⟩
  | 47 => ⟨S1, .f32⟩
  | 48 => ⟨S1, .f32⟩
  | 49 => ⟨S5, .f32⟩
  | _ => ⟨S16x1x1024x1024, .f32⟩

abbrev hbmTy (i : Nat) : BufTy := match i / 128 with
  | 0 => hbmTy0_0 i
  | 1 => hbmTy0_1 i
  | _ => ⟨S16x1x1024x1024, .f32⟩

abbrev bufTy : (tb : Table) → Fin (tcTables nBuf tb) → BufTy
  | .hbm, ⟨i, _⟩ => hbmTy i
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_call2_v0 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_11 : Ref sig .tc := ⟨.hbm, 43, rfl⟩
abbrev main_call3_v0 : Ref sig .tc := ⟨.hbm, 44, rfl⟩
abbrev main_v24 : Ref sig .tc := ⟨.hbm, 45, rfl⟩
abbrev main_v25 : Ref sig .tc := ⟨.hbm, 46, rfl⟩
abbrev main_c_12 : Ref sig .tc := ⟨.hbm, 47, rfl⟩
abbrev main_v26 : Ref sig .tc := ⟨.hbm, 48, rfl⟩
abbrev main_cst_13 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_cst_14 : Ref sig .tc := ⟨.hbm, 53, rfl⟩
abbrev main_v28 : Ref sig .tc := ⟨.hbm, 54, rfl⟩
abbrev main_c_15 : Ref sig .tc := ⟨.hbm, 55, rfl⟩
abbrev main_v29 : Ref sig .tc := ⟨.hbm, 56, rfl⟩
abbrev main_v30 : Ref sig .tc := ⟨.hbm, 57, rfl⟩
abbrev main_c_16 : Ref sig .tc := ⟨.hbm, 58, rfl⟩
abbrev main_v31 : Ref sig .tc := ⟨.hbm, 59, rfl⟩
abbrev main_v32 : Ref sig .tc := ⟨.hbm, 60, rfl⟩
abbrev main_cst_17 : Ref sig .tc := ⟨.hbm, 61, rfl⟩
abbrev main_call5_v0 : Ref sig .tc := ⟨.hbm, 62, rfl⟩
abbrev main_v33 : Ref sig .tc := ⟨.hbm, 63, rfl⟩
abbrev main_cst_18 : Ref sig .tc := ⟨.hbm, 64, rfl⟩
abbrev main_v34 : Ref sig .tc := ⟨.hbm, 65, rfl⟩
abbrev main_cst_19 : Ref sig .tc := ⟨.hbm, 66, rfl⟩
abbrev main_v35 : Ref sig .tc := ⟨.hbm, 67, rfl⟩
abbrev main_v36 : Ref sig .tc := ⟨.hbm, 68, rfl⟩
abbrev main_cst_20 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_21 : Ref sig .tc := ⟨.hbm, 73, rfl⟩
abbrev main_call6_v0 : Ref sig .tc := ⟨.hbm, 74, rfl⟩
abbrev main_v40 : Ref sig .tc := ⟨.hbm, 75, rfl⟩
abbrev main_v41 : Ref sig .tc := ⟨.hbm, 76, rfl⟩
abbrev main_c_22 : Ref sig .tc := ⟨.hbm, 77, rfl⟩
abbrev main_v42 : Ref sig .tc := ⟨.hbm, 78, rfl⟩
abbrev main_cst_23 : Ref sig .tc := ⟨.hbm, 79, rfl⟩
abbrev main_call7_v0 : Ref sig .tc := ⟨.hbm, 80, rfl⟩
abbrev main_call7_v1 : Ref sig .tc := ⟨.hbm, 81, rfl⟩
abbrev main_v43 : Ref sig .tc := ⟨.hbm, 82, rfl⟩
abbrev main_cst_24 : Ref sig .tc := ⟨.hbm, 83, rfl⟩
abbrev main_v44 : Ref sig .tc := ⟨.hbm, 84, rfl⟩
abbrev main_c_25 : Ref sig .tc := ⟨.hbm, 85, rfl⟩
abbrev main_v45 : Ref sig .tc := ⟨.hbm, 86, rfl⟩
abbrev main_v46 : Ref sig .tc := ⟨.hbm, 87, rfl⟩
abbrev main_c_26 : Ref sig .tc := ⟨.hbm, 88, rfl⟩
abbrev main_v47 : Ref sig .tc := ⟨.hbm, 89, rfl⟩
abbrev main_v48 : Ref sig .tc := ⟨.hbm, 90, rfl⟩
abbrev main_cst_27 : Ref sig .tc := ⟨.hbm, 91, rfl⟩
abbrev main_call8_v0 : Ref sig .tc := ⟨.hbm, 92, rfl⟩
abbrev main_v49 : Ref sig .tc := ⟨.hbm, 93, rfl⟩
abbrev main_cst_28 : Ref sig .tc := ⟨.hbm, 94, rfl⟩
abbrev main_v50 : Ref sig .tc := ⟨.hbm, 95, rfl⟩
abbrev main_cst_29 : Ref sig .tc := ⟨.hbm, 96, rfl⟩
abbrev main_v51 : Ref sig .tc := ⟨.hbm, 97, rfl⟩
abbrev main_v52 : Ref sig .tc := ⟨.hbm, 98, rfl⟩
abbrev main_cst_30 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_31 : Ref sig .tc := ⟨.hbm, 103, rfl⟩
abbrev main_call9_v0 : Ref sig .tc := ⟨.hbm, 104, rfl⟩
abbrev main_v56 : Ref sig .tc := ⟨.hbm, 105, rfl⟩
abbrev main_v57 : Ref sig .tc := ⟨.hbm, 106, rfl⟩
abbrev main_c_32 : Ref sig .tc := ⟨.hbm, 107, rfl⟩
abbrev main_v58 : Ref sig .tc := ⟨.hbm, 108, rfl⟩
abbrev main_cst_33 : Ref sig .tc := ⟨.hbm, 109, rfl⟩
abbrev main_call10_v0 : Ref sig .tc := ⟨.hbm, 110, rfl⟩
abbrev main_call10_v1 : Ref sig .tc := ⟨.hbm, 111, rfl⟩
abbrev main_v59 : Ref sig .tc := ⟨.hbm, 112, rfl⟩
abbrev main_cst_34 : Ref sig .tc := ⟨.hbm, 113, rfl⟩
abbrev main_v60 : Ref sig .tc := ⟨.hbm, 114, rfl⟩
abbrev main_c_35 : Ref sig .tc := ⟨.hbm, 115, rfl⟩
abbrev main_v61 : Ref sig .tc := ⟨.hbm, 116, rfl⟩
abbrev main_v62 : Ref sig .tc := ⟨.hbm, 117, rfl⟩
abbrev main_c_36 : Ref sig .tc := ⟨.hbm, 118, rfl⟩
abbrev main_v63 : Ref sig .tc := ⟨.hbm, 119, rfl⟩
abbrev main_v64 : Ref sig .tc := ⟨.hbm, 120, rfl⟩
abbrev main_cst_37 : Ref sig .tc := ⟨.hbm, 121, rfl⟩
abbrev main_call11_v0 : Ref sig .tc := ⟨.hbm, 122, rfl⟩
abbrev main_v65 : Ref sig .tc := ⟨.hbm, 123, rfl⟩
abbrev main_cst_38 : Ref sig .tc := ⟨.hbm, 124, rfl⟩
abbrev main_v66 : Ref sig .tc := ⟨.hbm, 125, rfl⟩
abbrev main_cst_39 : Ref sig .tc := ⟨.hbm, 126, rfl⟩
abbrev main_v67 : Ref sig .tc := ⟨.hbm, 127, rfl⟩
abbrev main_v68 : Ref sig .tc := ⟨.hbm, 128, rfl⟩
abbrev main_cst_40 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_c_41 : Ref sig .tc := ⟨.hbm, 133, rfl⟩
abbrev main_call12_v0 : Ref sig .tc := ⟨.hbm, 134, rfl⟩
abbrev main_v72 : Ref sig .tc := ⟨.hbm, 135, rfl⟩
abbrev main_v73 : Ref sig .tc := ⟨.hbm, 136, rfl⟩
abbrev main_c_42 : Ref sig .tc := ⟨.hbm, 137, rfl⟩
abbrev main_v74 : Ref sig .tc := ⟨.hbm, 138, rfl⟩
abbrev main_cst_43 : Ref sig .tc := ⟨.hbm, 139, rfl⟩
abbrev main_call13_v0 : Ref sig .tc := ⟨.hbm, 140, rfl⟩
abbrev main_call13_v1 : Ref sig .tc := ⟨.hbm, 141, rfl⟩
abbrev main_v75 : Ref sig .tc := ⟨.hbm, 142, rfl⟩
abbrev main_cst_44 : Ref sig .tc := ⟨.hbm, 143, rfl⟩
abbrev main_v76 : Ref sig .tc := ⟨.hbm, 144, rfl⟩
abbrev main_c_45 : Ref sig .tc := ⟨.hbm, 145, rfl⟩
abbrev main_v77 : Ref sig .tc := ⟨.hbm, 146, rfl⟩
abbrev main_v78 : Ref sig .tc := ⟨.hbm, 147, rfl⟩
abbrev main_c_46 : Ref sig .tc := ⟨.hbm, 148, rfl⟩
abbrev main_v79 : Ref sig .tc := ⟨.hbm, 149, rfl⟩
abbrev main_v80 : Ref sig .tc := ⟨.hbm, 150, rfl⟩
abbrev main_cst_47 : Ref sig .tc := ⟨.hbm, 151, rfl⟩
abbrev main_call14_v0 : Ref sig .tc := ⟨.hbm, 152, rfl⟩
abbrev main_v81 : Ref sig .tc := ⟨.hbm, 153, rfl⟩
abbrev main_cst_48 : Ref sig .tc := ⟨.hbm, 154, rfl⟩
abbrev main_v82 : Ref sig .tc := ⟨.hbm, 155, rfl⟩
abbrev main_cst_49 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_cst_50 : Ref sig .tc := ⟨.hbm, 163, rfl⟩
abbrev main_v89 : Ref sig .tc := ⟨.hbm, 164, rfl⟩
abbrev main_v90 : Ref sig .tc := ⟨.hbm, 165, rfl⟩
abbrev main_cst_51 : Ref sig .tc := ⟨.hbm, 166, rfl⟩
abbrev main_v91 : Ref sig .tc := ⟨.hbm, 167, rfl⟩
abbrev main_v92 : Ref sig .tc := ⟨.hbm, 168, rfl⟩
abbrev main_cst_52 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  natLt_1_32 : 1 < 32
  reducesTo_S16x1x1024x1024_S_d0_1_2_3 : S16x1x1024x1024.ReducesTo [0, 1, 2, 3] S_
  h_S_ : 0 < S_.numel
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.KStep.lean ====
/-
  What one grid point does to the three outputs, as pure functions.

  The body reads the point's blocks p (of the first image) and r (of the second). For each of the five intervals it
  forms the 0/1 mask of r, adds the mask up over the block (lanes, then rows) and adds |p - r| over the masked
  pixels the same way; the five counts (and the five sums) are placed one-hot on lanes 0 … 4 of a [1, 128] row and
  added, from 0, in class order. The count row and the sum row are then ADDED to what the two accumulator blocks
  held — at the very first point, to the zero row stored just before. The mask block is 2 · class / 4 - 1 of r.

  So each accumulator is "previous contents + this point's row", and the mask block depends on r alone: stepC,
  stepS and maskB below. The six lemmas say that what a point of either case leaves in each output's block is
  that function of the blocks (and, for the accumulators, of what they held: the zero row in the first case).
-/
import proofs.«152754_j2808908612055_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.MCL

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The lane numbers 0 … 127 of a [1, 128] row. -/
abbrev lanes : IVec S1x128 32 := iota .tc S1x128 32 [1] iota_S1x128_d1_w32

/-- The count accumulator after a point: what it held plus the point's one-hot row of the five block counts. -/
def stepC (r : Vec F S1x1x512x1024 .f32) (acc : Vec F S1x128 .f32) : FVec F S1x128 .f32 :=
  k0_pay31 r lanes (k0_pay20 lanes (k0_pay15 r lanes k0_pay6 (k0_pay10 r) 0#32) (k0_pay17 r)) (k0_pay24 r) 3#32 acc

/-- The sum accumulator after a point: what it held plus the point's one-hot row of the five masked block sums. -/
def stepS (p r : Vec F S1x1x512x1024 .f32) (acc : Vec F S1x128 .f32) : FVec F S1x128 .f32 :=
  k0_pay1
    (k0_pay30 r (k0_pay5 p r) lanes
      (k0_pay21 (k0_pay5 p r) lanes (k0_pay16 r (k0_pay5 p r) lanes k0_pay7 (k0_pay11 p r) 0#32) (k0_pay17 r))
      (k0_pay25 r (k0_pay5 p r)) 3#32)
    acc

/-- The mask block of a point: 2 · class / 4 - 1 of the second image's block. -/
def maskB (r : Vec F S1x1x512x1024 .f32) : FVec F S1x1x512x1024 .f32 :=
  k0_pay2 (k0_pay28 r (k0_pay23 r (k0_pay18 r (k0_pay9 r))))

/-- The zero row the first point stores into each accumulator before adding to it. -/
abbrev zeroC : FVec F S1x128 .f32 := k0_pay3
abbrev zeroS : FVec F S1x128 .f32 := k0_pay4

/-! ## A point that is not the first -/

theorem outB_mask (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (p r : Vec F S1x1x512x1024 .f32) (xo3 xo4 : Vec F S1x128 .f32) :
    out0_B_2 c i arg2 harg2 arg3 harg3 arg4 harg4 arg5 harg5 arg6 harg6 hc0 p r xo3 xo4 = maskB r := by
  unfold out0_B_2
  rw [View.read_writes_eq_canon _ _ _ (cover0_B_2 c i arg2 harg2 arg3 harg3 arg4 harg4 arg5 harg5 arg6 harg6 hc0 p r xo3 xo4)]
  unfold kernelRun0_B
  dsimp only
  sl_unfold_words
  rw [View.canon_unit_zero hz4]
  simp only [View.readAt_eq_ld, harg2.read_unread, harg3.read_unread, harg5.read_unread, harg6.read_unread,
    View.ld_unit_zero (S := S1x128) hz2, View.ld_unit_zero (S := S1x1x512x1024) hz4]
  rfl

theorem outB_count (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (p r : Vec F S1x1x512x1024 .f32) (xo3 xo4 : Vec F S1x128 .f32) :
    out0_B_3 c i arg2 harg2 arg3 harg3 arg4 harg4 arg5 harg5 arg6 harg6 hc0 p r xo3 xo4 = stepC r xo3 := by
  unfold out0_B_3
  rw [View.read_writes_eq_canon _ _ _ (cover0_B_3 c i arg2 harg2 arg3 harg3 arg4 harg4 arg5 harg5 arg6 harg6 hc0 p r xo3 xo4)]
  unfold kernelRun0_B
  dsimp only
  sl_unfold_words
  rw [View.canon_unit_zero hz2]
  simp only [View.readAt_eq_ld, harg2.read_unread, harg3.read_unread, harg5.read_unread, harg6.read_unread,
    View.ld_unit_zero (S := S1x128) hz2, View.ld_unit_zero (S := S1x1x512x1024) hz4]
  rfl

theorem outB_sum (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (p r : Vec F S1x1x512x1024 .f32) (xo3 xo4 : Vec F S1x128 .f32) :
    out0_B_4 c i arg2 harg2 arg3 harg3 arg4 harg4 arg5 harg5 arg6 harg6 hc0 p r xo3 xo4 = stepS p r xo4 := by
  unfold out0_B_4
  rw [View.read_writes_eq_canon _ _ _ (cover0_B_4 c i arg2 harg2 arg3 harg3 arg4 harg4 arg5 harg5 arg6 harg6 hc0 p r xo3 xo4)]
  unfold kernelRun0_B
  dsimp only
  sl_unfold_words
  rw [View.canon_unit_zero hz2]
  simp only [View.readAt_eq_ld, harg2.read_unread, harg3.read_unread, harg5.read_unread, harg6.read_unread,
    View.ld_unit_zero (S := S1x128) hz2, View.ld_unit_zero (S := S1x1x512x1024) hz4]
  rfl

/-! ## The first point: the accumulators start from the zero row -/

theorem outA_mask (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : cond0_0 i)
    (p r : Vec F S1x1x512x1024 .f32) :
    out0_A_2 c i arg2 harg2 arg3 harg3 arg4 harg4 arg5 harg5 arg6 harg6 hc0 p r = maskB r := by
  unfold out0_A_2
  rw [View.read_writes_eq_canon _ _ _ (cover0_A_2 c i arg2 harg2 arg3 harg3 arg4 harg4 arg5 harg5 arg6 harg6 hc0 p r)]
  unfold kernelRun0_A
  dsimp only
  sl_unfold_words
  rw [View.canon_unit_zero hz4]
  simp only [View.readAt_eq_ld, harg2.read_unread, harg3.read_unread, harg5.read_unread, harg6.read_unread,
    View.ld_unit_zero (S := S1x128) hz2, View.ld_unit_zero (S := S1x1x512x1024) hz4]
  rfl

theorem outA_count (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : cond0_0 i)
    (p r : Vec F S1x1x512x1024 .f32) :
    out0_A_3 c i arg2 harg2 arg3 harg3 arg4 harg4 arg5 harg5 arg6 harg6 hc0 p r = stepC r zeroC := by
  unfold out0_A_3
  rw [View.read_writes_eq_canon _ _ _ (cover0_A_3 c i arg2 harg2 arg3 harg3 arg4 harg4 arg5 harg5 arg6 harg6 hc0 p r)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread, harg6.read_unread,
    View.ld_unit_zero (S := S1x128) hz2, View.ld_unit_zero (S := S1x1x512x1024) hz4]
  rfl

theorem outA_sum (c : Dev nD) (i : grid0.Coords) (arg2 : Memref sig .tc .vmem S1x1x512x1024 .f32) (harg2 : arg2.IsWhole) (arg3 : Memref sig .tc .vmem S1x1x512x1024 .f32) (harg3 : arg3.IsWhole) (arg4 : Memref sig .tc .vmem S1x1x512x1024 .f32) (harg4 : arg4.IsWhole) (arg5 : Memref sig .tc .vmem S1x128 .f32) (harg5 : arg5.IsWhole) (arg6 : Memref sig .tc .vmem S1x128 .f32) (harg6 : arg6.IsWhole) (hc0 : cond0_0 i)
    (p r : Vec F S1x1x512x1024 .f32) :
    out0_A_4 c i arg2 harg2 arg3 harg3 arg4 harg4 arg5 harg5 arg6 harg6 hc0 p r = stepS p r zeroS := by
  unfold out0_A_4
  rw [View.read_writes_eq_canon _ _ _ (cover0_A_4 c i arg2 harg2 arg3 harg3 arg4 harg4 arg5 harg5 arg6 harg6 hc0 p r)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread, harg6.read_unread,
    View.ld_unit_zero (S := S1x128) hz2, View.ld_unit_zero (S := S1x1x512x1024) hz4]
  rfl

end Cert.KernelIdeal.MCL

end
-- ==== Proof.Spec.lean ====
/-
  The class-masked L1 loss, as mathematics over the extended reals.

  Two images P ("pre") and R ("real") of shape [16, 1, 1024, 1024]. Five closed intervals
  [-1, 1], [-1, -1/2], [-1/2, 0], [0, 1/2], [1/2, 1]; pixel x is in class i when R x lies in interval i.
  Per class: N i = the number of pixels of the class, S i = the sum over those pixels of |P x - R x|, and the
  class loss (0 if N i = 0, else S i / max (N i) 1) · 0.2. The total loss is the sum of the five. The mask
  image sends a pixel to 2 · k / 4 - 1 for k the LAST class containing it (0 when none does).

  One program counts with 0/1 extended reals added block by block, the other with 32-bit integers added over
  the whole image; one adds the five class losses as a reduction from 0, the other left to right from 0.
  This file has the definitions; the laws that make those the same numbers are in SpecBlocks.lean (a sum over
  the image split into 32 row blocks, a one-hot placement read at its lane, a five-term sum) and SpecCounts.lean
  (a sum of 0/1 indicators as a cardinality, as an extended real and as a word that does not wrap; the class
  loss from either count).
-/
import Idealize.ShloMosaic.PureOps.Ideal
import Idealize.ShloMosaic.PureOps.Ideal.Laws
import Idealize.ShloMosaic.Lib.ValueIdx
import Idealize.ShloMosaic.Lib.StableHlo.Predicate

noncomputable section

namespace Cert.MCL

open Idealize.ShloMosaic Idealize.ShloMosaic.ValueIdx

/-- The image's shape and a row block's. -/
abbrev Arr : Shape := ⟨4, ![16, 1, 1024, 1024]⟩
abbrev Blk : Shape := ⟨4, ![1, 1, 512, 1024]⟩

/-- The f32 words of 0, 1, 0.2, 2, 4. -/
abbrev w0 : BitVec 32 := 0x00000000#32
abbrev w1 : BitVec 32 := 0x3F800000#32
abbrev wFifth : BitVec 32 := 0x3E4CCCCD#32
abbrev w2 : BitVec 32 := 0x40000000#32
abbrev w4 : BitVec 32 := 0x40800000#32

/-- The bit "l ≤ r ≤ h", the ends given as f32 words. -/
def inBand (l h : BitVec 32) (r : Ideal .f32) : BitVec 1 :=
  IntOp.andi (Ideal.cmp .oge r (Ideal.ofBits .f32 l)) (Ideal.cmp .ole r (Ideal.ofBits .f32 h))

/-- The class of a pixel value: the last interval containing it, 0 if none. -/
def cls (r : Ideal .f32) : BitVec 32 :=
  Scalar.select (inBand 0x3F000000#32 0x3F800000#32 r) 4#32
    (Scalar.select (inBand 0x00000000#32 0x3F000000#32 r) 3#32
      (Scalar.select (inBand 0xBF000000#32 0x00000000#32 r) 2#32
        (Scalar.select (inBand 0xBF800000#32 0xBF000000#32 r) 1#32
          (Scalar.select (inBand 0xBF800000#32 0x3F800000#32 r) 0#32 0#32))))

/-- The mask image's value at a pixel: 2 · class / 4 - 1. -/
def maskVal (r : Ideal .f32) : Ideal .f32 :=
  Ideal.div (Ideal.ofBits .f32 w2 * (((cls r).toInt : ℝ) : EReal)) (Ideal.ofBits .f32 w4) - Ideal.ofBits .f32 w1

/-- A pixel's contribution to a class's sum: |p - r| inside the interval, 0 outside. -/
def dterm (l h : BitVec 32) (p r : Ideal .f32) : Ideal .f32 :=
  Scalar.select (inBand l h r) (max (p - r) (-(p - r))) (Ideal.ofBits .f32 w0)

/-- A pixel's contribution to a class's count, as an extended real: 1 inside, 0 outside. -/
def ind (l h : BitVec 32) (r : Ideal .f32) : Ideal .f32 :=
  ((((inBand l h r).setWidth 32).toInt : ℝ) : EReal)

/-- A class's sum, its count as an extended real, and its count as a number. -/
def totalS (l h : BitVec 32) (P R : Arr.Idx → Ideal .f32) : EReal := ∑ x : Arr.Idx, dterm l h (P x) (R x)
def totalC (l h : BitVec 32) (R : Arr.Idx → Ideal .f32) : EReal := ∑ x : Arr.Idx, ind l h (R x)
def countN (l h : BitVec 32) (R : Arr.Idx → Ideal .f32) : ℕ := (Finset.univ.filter fun x : Arr.Idx => inBand l h (R x) = 1#1).card

/-- The class loss from a count and a sum, both extended reals. -/
def lossK (C S : EReal) : EReal :=
  Scalar.select (Ideal.cmp .oeq C (Ideal.ofBits .f32 w0)) (Ideal.ofBits .f32 w0) (Ideal.div S (max C (Ideal.ofBits .f32 w1)))
    * Ideal.ofBits .f32 wFifth

/-- The class loss from a 32-bit count and a sum. -/
def lossR (n : BitVec 32) (S : EReal) : EReal :=
  Scalar.select (IntOp.cmpi .eq n 0#32) (Ideal.ofBits .f32 w0) (Ideal.div S (((IntOp.maxsi n 1#32).toInt : ℝ) : EReal))
    * Ideal.ofBits .f32 wFifth

end Cert.MCL

end
-- ==== Proof.SpecBlocks.lean ====
/-
  Sums over the image and over small index types, rearranged.
  The image [16, 1, 1024, 1024] is the disjoint union of 32 row blocks [1, 1, 512, 1024]: block t is image t / 2,
  rows 512 · (t mod 2) … + 511. Addition of extended reals is commutative and associative, so a sum over the
  image is the sum over the blocks of each block's sum, rows then lanes.
-/
import proofs.«152754_j2808908612055_1_alg».proof.Proof.Spec

noncomputable section

namespace Cert.MCL

open Idealize.ShloMosaic Idealize.ShloMosaic.ValueIdx

/-- Pixel (r, w) of row block t: image t / 2, rows 512 · (t mod 2) + r. -/
def bix (t : Fin 32) (r : Fin 512) (w : Fin 1024) : Arr.Idx :=
  ix4 (⟨t.val / 2, by omega⟩ : Fin 16) (0 : Fin 1) (⟨512 * (t.val % 2) + r.val, by omega⟩ : Fin 1024) w

/-- The block decomposition as a bijection: (t, r, w) goes to pixel (r, w) of block t; back, pixel x of image a and row
    ρ lies in block 2 · a + ρ / 512 at row ρ mod 512, same lane. -/
def blkEquiv : Fin 32 × Fin 512 × Fin 1024 ≃ Arr.Idx where
  toFun p := bix p.1 p.2.1 p.2.2
  invFun x :=
    (⟨2 * (x 0).val + (x 2).val / 512, by
        have h0 : (x 0).val < 16 := (x 0).isLt
        have h2 : (x 2).val < 1024 := (x 2).isLt
        omega⟩,
     ⟨(x 2).val % 512, Nat.mod_lt _ (by norm_num)⟩,
     (x 3 : Fin 1024))
  left_inv p := by
    obtain ⟨t, r, w⟩ := p
    have ht : t.val < 32 := t.isLt
    have hr : r.val < 512 := r.isLt
    refine Prod.ext (Fin.ext ?_) (Prod.ext (Fin.ext ?_) rfl)
    · show 2 * (t.val / 2) + (512 * (t.val % 2) + r.val) / 512 = t.val
      omega
    · show (512 * (t.val % 2) + r.val) % 512 = r.val
      omega
  right_inv x := by
    have h0 : (x 0).val < 16 := (x 0).isLt
    have h2 : (x 2).val < 1024 := (x 2).isLt
    funext a
    match a with
    | ⟨0, _⟩ =>
      apply Fin.ext
      show (2 * (x 0).val + (x 2).val / 512) / 2 = (x 0).val
      omega
    | ⟨1, _⟩ =>
      apply Fin.ext
      have h1 : (x 1).val < 1 := (x 1).isLt
      show (0 : Nat) = (x 1).val
      omega
    | ⟨2, _⟩ =>
      apply Fin.ext
      show 512 * ((2 * (x 0).val + (x 2).val / 512) % 2) + (x 2).val % 512 = (x 2).val
      omega
    | ⟨3, _⟩ => rfl

/-- The 32 row blocks partition the image: a sum over the image is the sum over the blocks of the blocks' sums. -/
theorem sum_blocks (f : Arr.Idx → EReal) :
    ∑ t : Fin 32, ∑ r : Fin 512, ∑ w : Fin 1024, f (bix t r w) = ∑ x : Arr.Idx, f x := by
  -- the triple sum is one sum over the triples, and the triples are the pixels
  rw [← Equiv.sum_comp blkEquiv f, Fintype.sum_prod_type]
  refine Finset.sum_congr rfl fun t _ => ?_
  rw [Fintype.sum_prod_type]
  exact Finset.sum_congr rfl fun r _ => Finset.sum_congr rfl fun w _ => rfl

/-! ## One-hot placement -/

/-- Lane j's indicator of class i: the widened bit "j = i", as an extended real. -/
def oh (i : BitVec 32) (j : Fin 128) : EReal :=
  ((((IntOp.cmpi .eq (BitVec.ofNat 32 j.val) i).setWidth 32).toInt : ℝ) : EReal)

/-- The indicator is the extended real of its bit's integer value. -/
theorem oh_of_bit (i : BitVec 32) (j : Fin 128) (b : ℤ)
    (h : ((IntOp.cmpi .eq (BitVec.ofNat 32 j.val) i).setWidth 32).toInt = b) : oh i j = (((b : ℤ) : ℝ) : EReal) := by
  rw [oh, h]

/-- Five scalars placed one-hot on lanes 0 … 4 and added from 0: lane j < 5 holds the j-th. -/
theorem onehot_lane (c : Fin 5 → EReal) (j : Fin 5) :
    ((((Ideal.ofBits .f32 w0 + oh 0#32 ⟨j.val, by omega⟩ * c 0) + oh 1#32 ⟨j.val, by omega⟩ * c 1)
      + oh 2#32 ⟨j.val, by omega⟩ * c 2) + oh 3#32 ⟨j.val, by omega⟩ * c 3) + oh 4#32 ⟨j.val, by omega⟩ * c 4 = c j := by
  -- at lane j the bit "j = i" is 1 for i = j and 0 for the other four; 0 · c = 0 and 1 · c = c for every extended
  -- real c (infinite ones included), so the four other terms vanish and the j-th is left
  fin_cases j
  · rw [oh_of_bit 0#32 _ 1 (by decide), oh_of_bit 1#32 _ 0 (by decide), oh_of_bit 2#32 _ 0 (by decide),
      oh_of_bit 3#32 _ 0 (by decide), oh_of_bit 4#32 _ 0 (by decide)]
    simp only [Ideal.ofBits_zero_f32, Int.cast_one, Int.cast_zero, EReal.coe_one, EReal.coe_zero, zero_mul, one_mul,
      zero_add, add_zero]
    rfl
  · rw [oh_of_bit 0#32 _ 0 (by decide), oh_of_bit 1#32 _ 1 (by decide), oh_of_bit 2#32 _ 0 (by decide),
      oh_of_bit 3#32 _ 0 (by decide), oh_of_bit 4#32 _ 0 (by decide)]
    simp only [Ideal.ofBits_zero_f32, Int.cast_one, Int.cast_zero, EReal.coe_one, EReal.coe_zero, zero_mul, one_mul,
      zero_add, add_zero]
    rfl
  · rw [oh_of_bit 0#32 _ 0 (by decide), oh_of_bit 1#32 _ 0 (by decide), oh_of_bit 2#32 _ 1 (by decide),
      oh_of_bit 3#32 _ 0 (by decide), oh_of_bit 4#32 _ 0 (by decide)]
    simp only [Ideal.ofBits_zero_f32, Int.cast_one, Int.cast_zero, EReal.coe_one, EReal.coe_zero, zero_mul, one_mul,
      zero_add, add_zero]
    rfl
  · rw [oh_of_bit 0#32 _ 0 (by decide), oh_of_bit 1#32 _ 0 (by decide), oh_of_bit 2#32 _ 0 (by decide),
      oh_of_bit 3#32 _ 1 (by decide), oh_of_bit 4#32 _ 0 (by decide)]
    simp only [Ideal.ofBits_zero_f32, Int.cast_one, Int.cast_zero, EReal.coe_one, EReal.coe_zero, zero_mul, one_mul,
      zero_add, add_zero]
    rfl
  · rw [oh_of_bit 0#32 _ 0 (by decide), oh_of_bit 1#32 _ 0 (by decide), oh_of_bit 2#32 _ 0 (by decide),
      oh_of_bit 3#32 _ 0 (by decide), oh_of_bit 4#32 _ 1 (by decide)]
    simp only [Ideal.ofBits_zero_f32, Int.cast_one, Int.cast_zero, EReal.coe_one, EReal.coe_zero, zero_mul, one_mul,
      zero_add, add_zero]
    rfl

/-! ## Five terms -/

/-- A rank-1 index of extent 5 is its one coordinate. -/
def idx1Equiv : Fin 5 ≃ (⟨1, ![5]⟩ : Shape).Idx where
  toFun a := ix1 a
  invFun i := i 0
  left_inv _ := rfl
  right_inv i := (eq_ix1 i).symm

/-- A sum over the five-element index type, written out. -/
theorem sum_five (v : (⟨1, ![5]⟩ : Shape).Idx → EReal) :
    ∑ i : (⟨1, ![5]⟩ : Shape).Idx, v i = v (ix1 (0 : Fin 5)) + v (ix1 (1 : Fin 5)) + v (ix1 (2 : Fin 5)) + v (ix1 (3 : Fin 5)) + v (ix1 (4 : Fin 5)) := by
  rw [← Equiv.sum_comp idx1Equiv v, Fin.sum_univ_five]
  rfl

end Cert.MCL

end
-- ==== Proof.SpecClasses.lean ====
/-
  The five classes by number, and a class's loss as one number.
  Class j is the closed interval [lo j, hi j], the ends as f32 words: [-1, 1], [-1, -1/2], [-1/2, 0], [0, 1/2],
  [1/2, 1]. A class's loss is (0 if it has no pixel, else its sum over its count) · 0.2.
-/
import proofs.«152754_j2808908612055_1_alg».proof.Proof.Spec

noncomputable section

namespace Cert.MCL

open Idealize.ShloMosaic

/-- The lower and upper ends of class j's interval. -/
def lo : Fin 5 → BitVec 32 := ![0xBF800000#32, 0xBF800000#32, 0xBF000000#32, 0x00000000#32, 0x3F000000#32]
def hi : Fin 5 → BitVec 32 := ![0x3F800000#32, 0xBF000000#32, 0x00000000#32, 0x3F000000#32, 0x3F800000#32]

/-- Class j's loss for the images P, R. -/
def classLoss (j : Fin 5) (P R : Arr.Idx → Ideal .f32) : EReal :=
  lossK ((((countN (lo j) (hi j) R : ℕ) : ℝ)) : EReal) (totalS (lo j) (hi j) P R)

/-- The total loss as the second program adds it: from 0, left to right. -/
def totalLoss (P R : Arr.Idx → Ideal .f32) : EReal :=
  ((((Ideal.ofBits .f32 w0 + classLoss 0 P R) + classLoss 1 P R) + classLoss 2 P R) + classLoss 3 P R) + classLoss 4 P R

end Cert.MCL

end
-- ==== Proof.KLane.lean ====
/-
  One grid point's step, read at a lane and at a pixel, over the extended reals.

  The mask block at a pixel is 2 · class / 4 - 1 of that pixel of the block. Lane j < 5 of the count row after a
  step is what the row held at lane j plus the number of pixels of the block in class j, counted as a sum of 0/1
  extended reals over rows and lanes; of the sum row, plus the sum of |p - r| over those pixels. (The five block
  totals are placed one-hot and added from 0: at lane j only the j-th survives. A lane sum and then a row sum of a
  [1, 1, 512, 1024] block is the double sum over rows and lanes.)
-/
import proofs.«152754_j2808908612055_1_alg».proof.Proof.KStep
import proofs.«152754_j2808908612055_1_alg».proof.Proof.SpecBlocks
import proofs.«152754_j2808908612055_1_alg».proof.Proof.SpecClasses
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.MCL

open Cert.KernelIdeal Cert.KernelIdeal.Gen

/-- Lane j of a [1, 128] row, and pixel (a, b) of a [1, 1, 512, 1024] block. -/
abbrev lane (j : Fin 128) : S1x128.Idx := ix2 (0 : Fin 1) j
abbrev pix (a : Fin 512) (b : Fin 1024) : S1x1x512x1024.Idx := ix4 (0 : Fin 1) (0 : Fin 1) a b

/-- Class number j < 5 as a lane. -/
abbrev lane5 (j : Fin 5) : Fin 128 := ⟨j.val, by omega⟩

theorem maskB_apply (r : Vec Ideal S1x1x512x1024 .f32) (y : S1x1x512x1024.Idx) :
    maskB (F := Ideal) r y = Cert.MCL.maskVal (r y) := by
  -- every operation of the mask block is pointwise, and at a pixel the chain of five selects is the class, the
  -- arithmetic after it 2 · class / 4 - 1
  rfl

/-- A block's total: its lane sums, those added over the rows, read at the one index of the [1, 1, 1, 1] result. -/
def blockTotal (v : FVec Ideal S1x1x512x1024 .f32) : Ideal .f32 :=
  extractAt ![0, 0, 0, 0]
    (shapeCast S1x1x1x1
      (multiReduction .add [2] S1x1x1
        (shapeCast S1x1x512x1
          (multiReduction .add [3] S1x1x512 v 0x00000000#32 reduces_S1x1x512x1024_S1x1x512 (.inl rfl) rfl)
          shapeCasts_S1x1x512_S1x1x512x1)
        0x00000000#32 reduces_S1x1x512x1_S1x1x1 (.inl rfl) rfl)
      shapeCasts_S1x1x1_S1x1x1x1)
    inpos_S1x1x1x1_p0_0_0_0

/-- A block's total is the double sum over rows and lanes: the row reduction at its one index is the sum over the rows a
    of the [1, 1, 512, 1] column at (0, 0, a, 0), which is the lane reduction at (0, 0, a), the sum over the lanes b of the
    block at (0, 0, a, b). -/
theorem blockTotal_eq (v : FVec Ideal S1x1x512x1024 .f32) :
    blockTotal v = ∑ a : Fin 512, ∑ b : Fin 1024, v (pix a b) := by
  unfold blockTotal extractAt
  refine (shapeCast_addUnit_apply ![1, 1, 1] _ shapeCasts_S1x1x1_S1x1x1x1 _).trans ?_
  refine (Ideal.multiReduction_add_single _ _ reduces_S1x1x512x1_S1x1x1 _ _ _).trans ?_
  show ∑ a : Fin 512, _ = _
  refine Finset.sum_congr rfl fun a _ => ?_
  refine (shapeCast_apply _ shapeCasts_S1x1x512_S1x1x512x1 _ (ix3 (0 : Fin 1) (0 : Fin 1) a) ?_).trans ?_
  · rw [Shape.rowMajor_val_three, Shape.rowMajor_val_four]
    show (0 * 1 + 0) * 512 + a.val = ((0 * 1 + 0) * 512 + a.val) * 1 + 0
    omega
  refine (Ideal.multiReduction_add_single _ _ reduces_S1x1x512x1024_S1x1x512 _ _ _).trans ?_
  show ∑ b : Fin 1024, _ = _
  refine Finset.sum_congr rfl fun b _ => ?_
  exact congrArg v (funext fun e => match e with
    | ⟨0, _⟩ => Fin.ext rfl | ⟨1, _⟩ => Fin.ext rfl | ⟨2, _⟩ => Fin.ext rfl | ⟨3, _⟩ => Fin.ext rfl)

/-- The lane numbers read at a lane. -/
theorem lanes_lane (j : Fin 128) : lanes (lane j) = BitVec.ofNat 32 j.val :=
  iota_single_apply .tc S1x128 32 1 iota_S1x128_d1_w32 (lane j)

/-- The one-hot factor of class i at lane j. -/
theorem onehot_at (i : BitVec 32) (j : Fin 128) :
    (sitofp .f32 (extui 32 (cmpi .eq lanes (broadcast S1x128 i)) natLt_1_32) : FVec Ideal S1x128 .f32) (lane j)
      = Cert.MCL.oh i j := by
  show ((((IntOp.cmpi .eq (lanes (lane j)) i).setWidth 32).toInt : ℝ) : EReal) = _
  rw [lanes_lane]
  rfl

/-- A 0/1 mask as extended reals. -/
abbrev cntv (m : IVec S1x1x512x1024 1) : FVec Ideal S1x1x512x1024 .f32 := sitofp .f32 (extui 32 m natLt_1_32)

/-- The block's count of class i, and its sum. -/
def blkCount (r : Vec Ideal S1x1x512x1024 .f32) (i : Fin 5) : EReal :=
  ∑ a : Fin 512, ∑ b : Fin 1024, Cert.MCL.ind (Cert.MCL.lo i) (Cert.MCL.hi i) (r (pix a b))

/-- A block's total of a mask that is class i's interval test at every pixel is the block's count of class i. -/
theorem count_eq (m : IVec S1x1x512x1024 1) (r : Vec Ideal S1x1x512x1024 .f32) (i : Fin 5)
    (hm : ∀ y, m y = Cert.MCL.inBand (Cert.MCL.lo i) (Cert.MCL.hi i) (r y)) :
    blockTotal (cntv m) = blkCount r i := by
  rw [blockTotal_eq]
  refine Finset.sum_congr rfl fun a _ => Finset.sum_congr rfl fun b _ => ?_
  show ((((m (pix a b)).setWidth 32).toInt : ℝ) : EReal) = _
  rw [hm]
  rfl

/-- The last two classes' terms, at a lane. -/
theorem pay31_at (r : Vec Ideal S1x1x512x1024 .f32) (v10 : IVec S1x128 32) (v102 : FVec Ideal S1x128 .f32) (v119 : Ideal .f32)
    (c : BitVec 32) (acc : Vec Ideal S1x128 .f32) (l : S1x128.Idx) :
    k0_pay31 (F := Ideal) r v10 v102 v119 c acc l
      = (shapeCast S1x128 acc shapeCasts_S1x128_S1x128 : FVec Ideal S1x128 .f32) l
        + ((v102 l + k0_pay26 (F := Ideal) v10 c l * v119) + k0_pay29 (F := Ideal) v10 l * blockTotal (cntv (k0_pay27 r))) := by
  unfold k0_pay31 blockTotal
  rw [addf_apply, addf_apply, addf_apply, mulf_apply, mulf_apply, broadcast_apply, broadcast_apply]

/-- The middle class's term, at a lane. -/
theorem pay20_at (v10 : IVec S1x128 32) (v71 : FVec Ideal S1x128 .f32) (v79 : IVec S1x1x512x1024 1) (l : S1x128.Idx) :
    k0_pay20 (F := Ideal) v10 v71 v79 l = v71 l + k0_pay19 (F := Ideal) v10 l * blockTotal (cntv v79) := by
  unfold k0_pay20 blockTotal
  rw [addf_apply, mulf_apply, broadcast_apply]

/-- The first two classes' terms, at a lane. -/
theorem pay15_at (r : Vec Ideal S1x1x512x1024 .f32) (v10 : IVec S1x128 32) (v11 : FVec Ideal S1x128 .f32) (v26 : Ideal .f32)
    (c : BitVec 32) (l : S1x128.Idx) :
    k0_pay15 (F := Ideal) r v10 v11 v26 c l
      = (v11 l + k0_pay12 (F := Ideal) v10 c l * v26) + k0_pay14 (F := Ideal) v10 l * blockTotal (cntv (k0_pay13 r)) := by
  unfold k0_pay15 blockTotal
  rw [addf_apply, addf_apply, mulf_apply, mulf_apply, broadcast_apply, broadcast_apply]

/-- The first and the fourth class's counts are block totals of their masks. -/
theorem pay10_eq (r : Vec Ideal S1x1x512x1024 .f32) : k0_pay10 (F := Ideal) r = blockTotal (cntv (k0_pay8 r)) := by
  unfold k0_pay10 blockTotal
  rfl
theorem pay24_eq (r : Vec Ideal S1x1x512x1024 .f32) : k0_pay24 (F := Ideal) r = blockTotal (cntv (k0_pay22 r)) := by
  unfold k0_pay24 blockTotal
  rfl

theorem stepC_lane (r : Vec Ideal S1x1x512x1024 .f32) (acc : Vec Ideal S1x128 .f32) (j : Fin 5) :
    stepC (F := Ideal) r acc (lane (lane5 j))
      = acc (lane (lane5 j)) + ∑ a : Fin 512, ∑ b : Fin 1024, Cert.MCL.ind (Cert.MCL.lo j) (Cert.MCL.hi j) (r (pix a b)) := by
  -- the row is the five block counts placed one-hot and added from 0; at lane j only the j-th count is left
  have z : k0_pay6 (F := Ideal) (lane (lane5 j)) = Ideal.ofBits .f32 Cert.MCL.w0 := rfl
  have o0 : k0_pay12 (F := Ideal) lanes 0#32 (lane (lane5 j)) = Cert.MCL.oh 0#32 (lane5 j) := onehot_at _ _
  have o1 : k0_pay14 (F := Ideal) lanes (lane (lane5 j)) = Cert.MCL.oh 1#32 (lane5 j) := onehot_at _ _
  have o2 : k0_pay19 (F := Ideal) lanes (lane (lane5 j)) = Cert.MCL.oh 2#32 (lane5 j) := onehot_at _ _
  have o3 : k0_pay26 (F := Ideal) lanes 3#32 (lane (lane5 j)) = Cert.MCL.oh 3#32 (lane5 j) := onehot_at _ _
  have o4 : k0_pay29 (F := Ideal) lanes (lane (lane5 j)) = Cert.MCL.oh 4#32 (lane5 j) := onehot_at _ _
  show _ = acc (lane (lane5 j)) + blkCount r j
  unfold stepC
  rw [pay31_at, pay20_at, pay15_at, pay10_eq, pay24_eq, shapeCast_self, z, o0, o1, o2, o3, o4,
    count_eq (k0_pay8 r) r 0 fun _ => rfl, count_eq (k0_pay13 r) r 1 fun _ => rfl, count_eq (k0_pay17 r) r 2 fun _ => rfl,
    count_eq (k0_pay22 r) r 3 fun _ => rfl, count_eq (k0_pay27 r) r 4 fun _ => rfl]
  exact congrArg (acc (lane (lane5 j)) + ·) (Cert.MCL.onehot_lane (blkCount r) j)

/-- A block masked by a 0/1 mask: the block inside, 0 outside. -/
abbrev selv (m : IVec S1x1x512x1024 1) (v : FVec Ideal S1x1x512x1024 .f32) : FVec Ideal S1x1x512x1024 .f32 :=
  select m v (broadcast S1x1x512x1024 (Scalar.ofBits .f32 0x00000000#32 : Ideal .f32))

/-- The block's sum of |p - r| over class i. -/
def blkSum (p r : Vec Ideal S1x1x512x1024 .f32) (i : Fin 5) : EReal :=
  ∑ a : Fin 512, ∑ b : Fin 1024, Cert.MCL.dterm (Cert.MCL.lo i) (Cert.MCL.hi i) (p (pix a b)) (r (pix a b))

/-- A block's total of |p - r| masked by class i's interval test is the block's sum of class i. -/
theorem sum_eq (m : IVec S1x1x512x1024 1) (p r : Vec Ideal S1x1x512x1024 .f32) (i : Fin 5)
    (hm : ∀ y, m y = Cert.MCL.inBand (Cert.MCL.lo i) (Cert.MCL.hi i) (r y)) :
    blockTotal (selv m (k0_pay5 p r)) = blkSum p r i := by
  rw [blockTotal_eq]
  refine Finset.sum_congr rfl fun a _ => Finset.sum_congr rfl fun b _ => ?_
  show Scalar.select (m (pix a b)) (k0_pay5 (F := Ideal) p r (pix a b)) (Scalar.ofBits .f32 0x00000000#32 : Ideal .f32) = _
  rw [hm]
  rfl

/-- The accumulator plus the row, at a lane. -/
theorem pay1_at (v167 : FVec Ideal S1x128 .f32) (acc : Vec Ideal S1x128 .f32) (l : S1x128.Idx) :
    k0_pay1 (F := Ideal) v167 acc l = (shapeCast S1x128 acc shapeCasts_S1x128_S1x128 : FVec Ideal S1x128 .f32) l + v167 l := by
  unfold k0_pay1
  rw [addf_apply]

/-- The last two classes' terms of the sum row, at a lane. -/
theorem pay30_at (r : Vec Ideal S1x1x512x1024 .f32) (v8 : FVec Ideal S1x1x512x1024 .f32) (v10 : IVec S1x128 32)
    (v105 : FVec Ideal S1x128 .f32) (v126 : Ideal .f32) (c : BitVec 32) (l : S1x128.Idx) :
    k0_pay30 (F := Ideal) r v8 v10 v105 v126 c l
      = (v105 l + k0_pay26 (F := Ideal) v10 c l * v126) + k0_pay29 (F := Ideal) v10 l * blockTotal (selv (k0_pay27 r) v8) := by
  unfold k0_pay30 blockTotal
  rw [addf_apply, addf_apply, mulf_apply, mulf_apply, broadcast_apply, broadcast_apply]

/-- The middle class's term of the sum row, at a lane. -/
theorem pay21_at (v8 : FVec Ideal S1x1x512x1024 .f32) (v10 : IVec S1x128 32) (v74 : FVec Ideal S1x128 .f32)
    (v79 : IVec S1x1x512x1024 1) (l : S1x128.Idx) :
    k0_pay21 (F := Ideal) v8 v10 v74 v79 l = v74 l + k0_pay19 (F := Ideal) v10 l * blockTotal (selv v79 v8) := by
  unfold k0_pay21 blockTotal
  rw [addf_apply, mulf_apply, broadcast_apply]

/-- The first two classes' terms of the sum row, at a lane. -/
theorem pay16_at (r : Vec Ideal S1x1x512x1024 .f32) (v8 : FVec Ideal S1x1x512x1024 .f32) (v10 : IVec S1x128 32)
    (v12 : FVec Ideal S1x128 .f32) (v33 : Ideal .f32) (c : BitVec 32) (l : S1x128.Idx) :
    k0_pay16 (F := Ideal) r v8 v10 v12 v33 c l
      = (v12 l + k0_pay12 (F := Ideal) v10 c l * v33) + k0_pay14 (F := Ideal) v10 l * blockTotal (selv (k0_pay13 r) v8) := by
  unfold k0_pay16 blockTotal
  rw [addf_apply, addf_apply, mulf_apply, mulf_apply, broadcast_apply, broadcast_apply]

/-- The first and the fourth class's sums are block totals of the masked |p - r|. -/
theorem pay11_eq (p r : Vec Ideal S1x1x512x1024 .f32) :
    k0_pay11 (F := Ideal) p r = blockTotal (selv (k0_pay8 r) (k0_pay5 p r)) := by
  unfold k0_pay11 blockTotal
  rfl
theorem pay25_eq (r : Vec Ideal S1x1x512x1024 .f32) (v8 : FVec Ideal S1x1x512x1024 .f32) :
    k0_pay25 (F := Ideal) r v8 = blockTotal (selv (k0_pay22 r) v8) := by
  unfold k0_pay25 blockTotal
  rfl

theorem stepS_lane (p r : Vec Ideal S1x1x512x1024 .f32) (acc : Vec Ideal S1x128 .f32) (j : Fin 5) :
    stepS (F := Ideal) p r acc (lane (lane5 j))
      = acc (lane (lane5 j)) + ∑ a : Fin 512, ∑ b : Fin 1024,
          Cert.MCL.dterm (Cert.MCL.lo j) (Cert.MCL.hi j) (p (pix a b)) (r (pix a b)) := by
  -- the row is the five masked block sums placed one-hot and added from 0; at lane j only the j-th sum is left
  have z : k0_pay7 (F := Ideal) (lane (lane5 j)) = Ideal.ofBits .f32 Cert.MCL.w0 := rfl
  have o0 : k0_pay12 (F := Ideal) lanes 0#32 (lane (lane5 j)) = Cert.MCL.oh 0#32 (lane5 j) := onehot_at _ _
  have o1 : k0_pay14 (F := Ideal) lanes (lane (lane5 j)) = Cert.MCL.oh 1#32 (lane5 j) := onehot_at _ _
  have o2 : k0_pay19 (F := Ideal) lanes (lane (lane5 j)) = Cert.MCL.oh 2#32 (lane5 j) := onehot_at _ _
  have o3 : k0_pay26 (F := Ideal) lanes 3#32 (lane (lane5 j)) = Cert.MCL.oh 3#32 (lane5 j) := onehot_at _ _
  have o4 : k0_pay29 (F := Ideal) lanes (lane (lane5 j)) = Cert.MCL.oh 4#32 (lane5 j) := onehot_at _ _
  show _ = acc (lane (lane5 j)) + blkSum p r j
  unfold stepS
  rw [pay1_at, pay30_at, pay21_at, pay16_at, pay11_eq, pay25_eq, shapeCast_self, z, o0, o1, o2, o3, o4,
    sum_eq (k0_pay8 r) p r 0 fun _ => rfl, sum_eq (k0_pay13 r) p r 1 fun _ => rfl, sum_eq (k0_pay17 r) p r 2 fun _ => rfl,
    sum_eq (k0_pay22 r) p r 3 fun _ => rfl, sum_eq (k0_pay27 r) p r 4 fun _ => rfl]
  exact congrArg (acc (lane (lane5 j)) + ·) (Cert.MCL.onehot_lane (blkSum p r) j)

theorem zeroC_lane (j : Fin 128) : (zeroC (F := Ideal)) (lane j) = Ideal.ofBits .f32 Cert.MCL.w0 := rfl
theorem zeroS_lane (j : Fin 128) : (zeroS (F := Ideal)) (lane j) = Ideal.ofBits .f32 Cert.MCL.w0 := rfl

end Cert.KernelIdeal.MCL

end
-- ==== Proof.KTail.lean ====
/-
  The host operations after the region, as functions of the two accumulator arrays.

  From the count array and the sum array the program keeps lanes 0 … 4 (a slice [0:1, 0:5] and a reshape to [5]),
  and per class forms  (0 if count = 0, else sum / max(count, 1)) · 0.2 ; the total loss is the sum of the five,
  reduced from 0. The region's run hands the three arrays over; the operations after it read two of them.
-/
import proofs.«152754_j2808908612055_1_alg».proof.Proof.KLane
import Idealize.ShloMosaic.Lib.StableHlo.Run
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.MCL

open Cert.KernelIdeal Cert.KernelIdeal.Gen

section anyF
variable {F : FTy → Type} [FloatOps F]

/-- Lanes 0 … 4 of a [1, 128] row as a [5] vector. -/
def firstFive (A : Vec F S1x128 .f32) : FVec F S5 .f32 :=
  shapeCast S5 (extractStridedSlice S1x5 ![0, 0] A slices_S1x128_S1x5_0_0) shapeCasts_S1x5_S5

/-- The five class losses from the count row and the sum row. -/
def lossVec (A3 A4 : Vec F S1x128 .f32) : FVec F S5 .f32 :=
  mulf
    (select (cmpf .oeq (firstFive A3) (broadcastInDim S5 ![] bcast_S_S5 (constant S_ .f32 0x00000000#32)))
      (broadcastInDim S5 ![] bcast_S_S5 (id (constant S_ .f32 0x00000000#32)))
      (Host.divf (firstFive A4) (maximumf (firstFive A3) (broadcastInDim S5 ![] bcast_S_S5 (constant S_ .f32 0x3F800000#32)))))
    (constant S5 .f32 0x3E4CCCCD#32)

/-- The total loss: the five class losses reduced from 0. -/
def lossTot (A3 A4 : Vec F S1x128 .f32) : FVec F S_ .f32 :=
  Host.reduceAdd (lossVec A3 A4) (constant S_ .f32 0x00000000#32) reducesTo_S5_S_d0 h_S_

/-- Lane j of the five kept lanes is lane j of the row: the slice starts at (0, 0), and dropping the unit axis keeps
    the row-major position. -/
theorem firstFive_apply (A : Vec F S1x128 .f32) (j : Fin 5) : firstFive A (ix1 j) = A (lane (lane5 j)) := by
  unfold firstFive
  refine (shapeCast_apply _ shapeCasts_S1x5_S5 (ix1 j) (ix2 (0 : Fin 1) j) ?_).trans ?_
  · rw [Shape.rowMajor_val_two, Shape.rowMajor_val_one]
    show (0 : ℕ) * 5 + j.val = j.val
    omega
  · refine extractStridedSlice_apply _ _ _ _ _ fun a => ?_
    match a with
    | ⟨0, _⟩ => rfl
    | ⟨1, _⟩ => show j.val = 0 + j.val; omega

variable (m : (ℓ : Loc nD τ sig) → Buf (Elt F) ℓ) (ρ : Dev nD → PrngReg)

/-- After the region the count row is the pipeline's fourth array as its run leaves it. -/
theorem tail_arr3 (c : Dev nD) :
    Pipeline.withArrays (cfgs 0).spec c (V0 m c) (fun w => (dats m 0 c).arrAt w (cfgs 0).N) (Proc.devRef .tc main_v0_1)
      = (dats m 0 c).arrAt 3 cfg0.N :=
  Pipeline.withArrays_arr spec0 launch0.win.arr_inj c _ _ 3

/-- And the sum row its fifth. -/
theorem tail_arr4 (c : Dev nD) :
    Pipeline.withArrays (cfgs 0).spec c (V0 m c) (fun w => (dats m 0 c).arrAt w (cfgs 0).N) (Proc.devRef .tc main_v0_2)
      = (dats m 0 c).arrAt 4 cfg0.N :=
  Pipeline.withArrays_arr spec0 launch0.win.arr_inj c _ _ 4

/-- The splat of 0.2 is no array of the pipeline: after the region it is still what the one operation before the
    region wrote. -/
theorem tail_cst (c : Dev nD) :
    Pipeline.withArrays (cfgs 0).spec c (V0 m c) (fun w => (dats m 0 c).arrAt w (cfgs 0).N) (Proc.devRef .tc main_cst)
      = constant S5 .f32 0x3E4CCCCD#32 := by
  refine (Pipeline.withArrays_of_ne spec0 c _ _ main_cst (by decide)).trans ?_
  show StableHlo.after (List.flatten [hostOps0]) (fun b => m (c, b)) (Proc.devRef .tc main_cst) = _
  simp only [hostOps0, List.flatten_cons, List.flatten_nil, List.append_nil, List.cons_append, List.nil_append]
  after_results

/-- The program's run with its three results named: the mask array as the region leaves it, the class losses and
    the total loss as the operations after the region compute them from the two accumulator arrays. -/
theorem run_named : θ_run defs (onTc (τ := τ) (main (F := F))) ⟨m, fun _ => 0, ρ⟩ fun r => ∀ c : Dev nD,
      r.2.mem ((c.tc : Thread nD τ).loc main_v12) = lossTot ((dats m 0 c).arrAt 3 cfg0.N) ((dats m 0 c).arrAt 4 cfg0.N)
      ∧ r.2.mem ((c.tc : Thread nD τ).loc main_v11) = lossVec ((dats m 0 c).arrAt 3 cfg0.N) ((dats m 0 c).arrAt 4 cfg0.N)
      ∧ r.2.mem ((c.tc : Thread nD τ).loc main_v0_0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, (h c).1 2, ?_, ?_⟩) (run_main m ρ)
  · refine ((h c).2 main_v12 (by decide)).trans ?_
    unfold Pipeline.afterTail₀
    show StableHlo.after _ _ (Proc.devRef .tc main_v12) = _
    simp only [hostOps1, hostOps1_1, hostOps1_2, List.flatten_cons, List.flatten_nil, List.append_nil, List.cons_append,
      List.nil_append]
    after_results_simp
    rw [tail_arr3 m c, tail_arr4 m c, tail_cst m c]
    simp only [StableHlo.TRef.ofBuf, StableHlo.TRef.toBuf, cast_eq]
    rfl
  · refine ((h c).2 main_v11 (by decide)).trans ?_
    unfold Pipeline.afterTail₀
    show StableHlo.after _ _ (Proc.devRef .tc main_v11) = _
    simp only [hostOps1, hostOps1_1, hostOps1_2, List.flatten_cons, List.flatten_nil, List.append_nil, List.cons_append,
      List.nil_append]
    after_results_simp
    rw [tail_arr3 m c, tail_arr4 m c, tail_cst m c]
    simp only [StableHlo.TRef.ofBuf, StableHlo.TRef.toBuf, cast_eq]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
end anyF

/-- Class j's loss, over the extended reals, from lane j of the two rows. -/
theorem lossVec_apply (A3 A4 : Vec Ideal S1x128 .f32) (j : Fin 5) :
    lossVec (F := Ideal) A3 A4 (ix1 j) = Cert.MCL.lossK (A3 (lane (lane5 j))) (A4 (lane (lane5 j))) := by
  have h3 := firstFive_apply A3 j
  have h4 := firstFive_apply A4 j
  unfold lossVec Cert.MCL.lossK
  simp only [mulf_apply, select_apply, cmpf_apply, maximumf_apply, constant_apply, h3, h4, Host.divf, id]
  rfl

/-- The total loss, over the extended reals: 0 plus the sum of the five class losses. -/
theorem lossTot_apply (A3 A4 : Vec Ideal S1x128 .f32) :
    lossTot (F := Ideal) A3 A4 ix0 = Ideal.ofBits .f32 Cert.MCL.w0 + ∑ i : S5.Idx, lossVec (F := Ideal) A3 A4 i := by
  unfold lossTot Host.reduceAdd
  rw [Ideal.hostReduceAdd_def]
  exact Ideal.hostReduceAdd_total reducesTo_S5_S_d0 (fun b => b.elim0) (lossVec A3 A4) _ ix0

end Cert.KernelIdeal.MCL

end
-- ==== Proof.KChain.lean ====
/-
  The three outputs' blocks after every grid point, in closed form.

  The two accumulator rows are revisited by all 32 points and written back once, after the last. After point n
  the count row holds  step(rₙ, step(rₙ₋₁, … step(r₀, 0)))  — the zero row, then one step per point — and the sum
  row likewise; the mask block after point n is the mask of point n's block alone. By induction on the point:
  the first point is the case that resets, every later point the case that adds to what the point before left.
-/
import proofs.«152754_j2808908612055_1_alg».proof.Proof.KStep

noncomputable section

open Idealize.ShloMosaic Idealize.ShloMosaic.TcCoe Idealize.SL.Sem
open Idealize.ShloMosaic.Pipeline (Dat)

namespace Cert.KernelIdeal.MCL

open Cert.KernelIdeal Cert.KernelIdeal.Gen

variable {F : FTy → Type} [FloatOps F]
variable (m : (ℓ : Loc nD τ sig) → Buf (Elt F) ℓ)

/-- Point t's block of the first image and of the second, at their literal type. -/
abbrev pblk (c : Dev nD) (t : Fin cfg0.N) : Vec F S1x1x512x1024 .f32 := iblk m c 0 t
abbrev rblk (c : Dev nD) (t : Fin cfg0.N) : Vec F S1x1x512x1024 .f32 := iblk m c 1 t

/-- The count row after point n: the zero row, then one step per point up to n. -/
def accC (c : Dev nD) : (n : ℕ) → n < cfg0.N → Vec F S1x128 .f32
  | 0, h => stepC (rblk m c ⟨0, h⟩) zeroC
  | n + 1, h => stepC (rblk m c ⟨n + 1, h⟩) (accC c n (Nat.lt_of_succ_lt h))

/-- The sum row after point n. -/
def accS (c : Dev nD) : (n : ℕ) → n < cfg0.N → Vec F S1x128 .f32
  | 0, h => stepS (pblk m c ⟨0, h⟩) (rblk m c ⟨0, h⟩) zeroS
  | n + 1, h => stepS (pblk m c ⟨n + 1, h⟩) (rblk m c ⟨n + 1, h⟩) (accS c n (Nat.lt_of_succ_lt h))

/-- What the three output blocks hold after point n: the point's mask block, and the two running rows. -/
theorem outsAt_eq (c : Dev nD) : ∀ (n : ℕ) (h : n < cfg0.N),
    outsAt0 m c n h = (maskB (rblk m c ⟨n, h⟩), accC m c n h, accS m c n h)
  | 0, h => by
    rw [outsAt0_A m c ⟨0, h⟩ rfl, outA_mask, outA_count, outA_sum]
    rfl
  | n + 1, h => by
    have hN : cfg0.N = 32 := N_0
    have hB : ¬(⟨n + 1, h⟩ : Fin cfg0.N).val % 32 = 0 := by dsimp only; omega
    rw [outsAt0_B m c ⟨n + 1, h⟩ hB, outB_mask, outB_count, outB_sum]
    show (_, stepC _ (outsAt0 m c n _).2.1, stepS _ _ (outsAt0 m c n _).2.2) = _
    rw [outsAt_eq c n]
    rfl

theorem outs_mask (c : Dev nD) (t : Fin cfg0.N) : (outsAt0 m c t.val t.isLt).1 = maskB (rblk m c t) := by
  rw [outsAt_eq]

theorem outs_count (c : Dev nD) (t : Fin cfg0.N) : (outsAt0 m c t.val t.isLt).2.1 = accC m c t.val t.isLt := by
  rw [outsAt_eq]

theorem outs_sum (c : Dev nD) (t : Fin cfg0.N) : (outsAt0 m c t.val t.isLt).2.2 = accS m c t.val t.isLt := by
  rw [outsAt_eq]

end Cert.KernelIdeal.MCL

end
-- ==== Proof.KTotals.lean ====
/-
  The accumulator rows after the last point, as totals over the whole images.

  Point t's block of an image is rows 512 · (t mod 2) … of image t / 2, so pixel (a, b) of the block is pixel
  bix t a b of the image. Lane j < 5 of the count row after point n is 0 plus the block counts of class j of
  points 0 … n; after the last point, by the partition of the image into the 32 blocks, 0 plus the class's count
  over the whole image. The sum row likewise.
-/
import proofs.«152754_j2808908612055_1_alg».proof.Proof.KChain
import proofs.«152754_j2808908612055_1_alg».proof.Proof.KLane

noncomputable section

open Idealize.ShloMosaic Idealize.ShloMosaic.TcCoe Idealize.ShloMosaic.ValueIdx Idealize.SL.Sem

namespace Cert.KernelIdeal.MCL

open Cert.KernelIdeal Cert.KernelIdeal.Gen

variable (m : (ℓ : Loc nD τ sig) → Buf (Elt Ideal) ℓ)

/-- The two images as the region finds them. -/
abbrev Parr (c : Dev nD) : Vec Ideal S16x1x1024x1024 .f32 := V m c main_arg0
abbrev Rarr (c : Dev nD) : Vec Ideal S16x1x1024x1024 .f32 := V m c main_arg1

theorem h31 : 31 < cfg0.N := by rw [show cfg0.N = 32 from N_0]; decide

/-- A grid point by its number. -/
abbrev pt (t : Fin 32) : Fin cfg0.N := Fin.cast N_0.symm t

/-- The two image windows' block index at grid point t is (t / 2, 0, t mod 2, 0): decided over the 32 points. -/
theorem idx0 : ∀ t : Fin grid0.N, win0_0.index t (0 : Fin 4) = t.val / 2 ∧ win0_0.index t (1 : Fin 4) = 0
    ∧ win0_0.index t (2 : Fin 4) = t.val % 2 ∧ win0_0.index t (3 : Fin 4) = 0 := by decide +kernel
theorem idx1 : ∀ t : Fin grid0.N, win0_1.index t (0 : Fin 4) = t.val / 2 ∧ win0_1.index t (1 : Fin 4) = 0
    ∧ win0_1.index t (2 : Fin 4) = t.val % 2 ∧ win0_1.index t (3 : Fin 4) = 0 := by decide +kernel

/-- Pixel (a, b) of point t's block is pixel `bix t a b` of the image. -/
theorem pblk_apply (c : Dev nD) (t : Fin 32) (a : Fin 512) (b : Fin 1024) :
    pblk m c (pt t) (pix a b) = Parr m c (Cert.MCL.bix t a b) := by
  obtain ⟨h0, h1, h2, h3⟩ := idx0 (pt t)
  unfold pblk iblk
  rw [View.read_apply]
  show V m c main_arg0 _ = V m c main_arg0 _
  congr 1
  funext e
  apply Fin.ext
  match e with
  | ⟨0, _⟩ => show win0_0.index (pt t) 0 * 1 + 1 * (0 : ℕ) = t.val / 2; rw [h0]; simp
  | ⟨1, _⟩ => show win0_0.index (pt t) 1 * 1 + 1 * (0 : ℕ) = 0; rw [h1]
  | ⟨2, _⟩ => show win0_0.index (pt t) 2 * 512 + 1 * a.val = 512 * (t.val % 2) + a.val; rw [h2]; simp; omega
  | ⟨3, _⟩ => show win0_0.index (pt t) 3 * 1024 + 1 * b.val = b.val; rw [h3]; omega

theorem rblk_apply (c : Dev nD) (t : Fin 32) (a : Fin 512) (b : Fin 1024) :
    rblk m c (pt t) (pix a b) = Rarr m c (Cert.MCL.bix t a b) := by
  obtain ⟨h0, h1, h2, h3⟩ := idx1 (pt t)
  unfold rblk iblk
  rw [View.read_apply]
  show V m c main_arg1 _ = V m c main_arg1 _
  congr 1
  funext e
  apply Fin.ext
  match e with
  | ⟨0, _⟩ => show win0_1.index (pt t) 0 * 1 + 1 * (0 : ℕ) = t.val / 2; rw [h0]; simp
  | ⟨1, _⟩ => show win0_1.index (pt t) 1 * 1 + 1 * (0 : ℕ) = 0; rw [h1]
  | ⟨2, _⟩ => show win0_1.index (pt t) 2 * 512 + 1 * a.val = 512 * (t.val % 2) + a.val; rw [h2]; simp; omega
  | ⟨3, _⟩ => show win0_1.index (pt t) 3 * 1024 + 1 * b.val = b.val; rw [h3]; omega

/-- Class j's count over point k's block of the second image, as a sum of 0/1 extended reals (0 past the last point). -/
def blkC (c : Dev nD) (j : Fin 5) (k : ℕ) : EReal :=
  if hk : k < 32 then
    ∑ a : Fin 512, ∑ b : Fin 1024, Cert.MCL.ind (Cert.MCL.lo j) (Cert.MCL.hi j) (Rarr m c (Cert.MCL.bix ⟨k, hk⟩ a b))
  else 0

/-- Class j's sum of |p - r| over point k's block (0 past the last point). -/
def blkS (c : Dev nD) (j : Fin 5) (k : ℕ) : EReal :=
  if hk : k < 32 then
    ∑ a : Fin 512, ∑ b : Fin 1024, Cert.MCL.dterm (Cert.MCL.lo j) (Cert.MCL.hi j)
      (Parr m c (Cert.MCL.bix ⟨k, hk⟩ a b)) (Rarr m c (Cert.MCL.bix ⟨k, hk⟩ a b))
  else 0

/-- Point k's block count, read through the block. -/
theorem blkC_eq (c : Dev nD) (j : Fin 5) (k : ℕ) (h : k < cfg0.N) :
    ∑ a : Fin 512, ∑ b : Fin 1024, Cert.MCL.ind (Cert.MCL.lo j) (Cert.MCL.hi j) (rblk m c ⟨k, h⟩ (pix a b)) = blkC m c j k := by
  have hN : cfg0.N = 32 := N_0
  have hk : k < 32 := by omega
  unfold blkC
  rw [dif_pos hk]
  refine Finset.sum_congr rfl fun a _ => Finset.sum_congr rfl fun b _ => ?_
  rw [show (⟨k, h⟩ : Fin cfg0.N) = pt ⟨k, hk⟩ from Fin.ext rfl, rblk_apply]

/-- Point k's block sum, read through the two blocks. -/
theorem blkS_eq (c : Dev nD) (j : Fin 5) (k : ℕ) (h : k < cfg0.N) :
    ∑ a : Fin 512, ∑ b : Fin 1024, Cert.MCL.dterm (Cert.MCL.lo j) (Cert.MCL.hi j) (pblk m c ⟨k, h⟩ (pix a b)) (rblk m c ⟨k, h⟩ (pix a b))
      = blkS m c j k := by
  have hN : cfg0.N = 32 := N_0
  have hk : k < 32 := by omega
  unfold blkS
  rw [dif_pos hk]
  refine Finset.sum_congr rfl fun a _ => Finset.sum_congr rfl fun b _ => ?_
  rw [show (⟨k, h⟩ : Fin cfg0.N) = pt ⟨k, hk⟩ from Fin.ext rfl, rblk_apply, pblk_apply]

/-- Lane j of the count row after point n is 0 plus the block counts of points 0 … n. -/
theorem accC_lane (c : Dev nD) (j : Fin 5) : ∀ (n : ℕ) (h : n < cfg0.N),
    accC m c n h (lane (lane5 j)) = Ideal.ofBits .f32 Cert.MCL.w0 + ∑ k ∈ Finset.range (n + 1), blkC m c j k
  | 0, h => by
    rw [accC, stepC_lane, zeroC_lane, Finset.sum_range_one, blkC_eq]
  | n + 1, h => by
    rw [accC, stepC_lane, accC_lane c j n, Finset.sum_range_succ _ (n + 1), add_assoc, blkC_eq]

/-- Lane j of the sum row after point n is 0 plus the block sums of points 0 … n. -/
theorem accS_lane (c : Dev nD) (j : Fin 5) : ∀ (n : ℕ) (h : n < cfg0.N),
    accS m c n h (lane (lane5 j)) = Ideal.ofBits .f32 Cert.MCL.w0 + ∑ k ∈ Finset.range (n + 1), blkS m c j k
  | 0, h => by
    rw [accS, stepS_lane, zeroS_lane, Finset.sum_range_one, blkS_eq]
  | n + 1, h => by
    rw [accS, stepS_lane, accS_lane c j n, Finset.sum_range_succ _ (n + 1), add_assoc, blkS_eq]

/-- The 32 block counts add up to the class's count over the whole image. -/
theorem sum_blkC (c : Dev nD) (j : Fin 5) :
    ∑ k ∈ Finset.range (31 + 1), blkC m c j k = Cert.MCL.totalC (Cert.MCL.lo j) (Cert.MCL.hi j) (Rarr m c) := by
  unfold Cert.MCL.totalC
  rw [← Cert.MCL.sum_blocks (fun x => Cert.MCL.ind (Cert.MCL.lo j) (Cert.MCL.hi j) (Rarr m c x)),
    ← Fin.sum_univ_eq_sum_range (fun k => blkC m c j k) (31 + 1)]
  refine Finset.sum_congr rfl fun t _ => ?_
  unfold blkC
  rw [dif_pos t.isLt]

/-- The 32 block sums add up to the class's sum over the whole images. -/
theorem sum_blkS (c : Dev nD) (j : Fin 5) :
    ∑ k ∈ Finset.range (31 + 1), blkS m c j k = Cert.MCL.totalS (Cert.MCL.lo j) (Cert.MCL.hi j) (Parr m c) (Rarr m c) := by
  unfold Cert.MCL.totalS
  rw [← Cert.MCL.sum_blocks (fun x => Cert.MCL.dterm (Cert.MCL.lo j) (Cert.MCL.hi j) (Parr m c x) (Rarr m c x)),
    ← Fin.sum_univ_eq_sum_range (fun k => blkS m c j k) (31 + 1)]
  refine Finset.sum_congr rfl fun t _ => ?_
  unfold blkS
  rw [dif_pos t.isLt]

/-- Lane j of the count row after the last point: 0 plus class j's count over the whole image. -/
theorem count_total (c : Dev nD) (j : Fin 5) :
    accC m c 31 h31 (lane (lane5 j))
      = Ideal.ofBits .f32 Cert.MCL.w0 + Cert.MCL.totalC (Cert.MCL.lo j) (Cert.MCL.hi j) (Rarr m c) := by
  rw [accC_lane m c j 31 h31, sum_blkC]

/-- Lane j of the sum row after the last point: 0 plus class j's sum over the whole image. -/
theorem sum_total (c : Dev nD) (j : Fin 5) :
    accS m c 31 h31 (lane (lane5 j))
      = Ideal.ofBits .f32 Cert.MCL.w0 + Cert.MCL.totalS (Cert.MCL.lo j) (Cert.MCL.hi j) (Parr m c) (Rarr m c) := by
  rw [accS_lane m c j 31 h31, sum_blkS]

end Cert.KernelIdeal.MCL

end
-- ==== Proof.KArrays.lean ====
/-
  The three result arrays after the region.

  The mask array is written block by block, every point writing its own block back; the 32 blocks tile the
  array, so the array ends as the mask of the second image, pixel by pixel. Each accumulator array is one block
  that every point revisits and only the last point writes back: it ends as the running row after the last point.
-/
import proofs.«152754_j2808908612055_1_alg».proof.Proof.KChain
import proofs.«152754_j2808908612055_1_alg».proof.Proof.KLane

noncomputable section

open Idealize.ShloMosaic Idealize.ShloMosaic.TcCoe Idealize.ShloMosaic.ValueIdx Idealize.SL.Sem
open Idealize.ShloMosaic.Pipeline (Dat)

namespace Cert.KernelIdeal.MCL

open Cert.KernelIdeal Cert.KernelIdeal.Gen

section anyF
variable {F : FTy → Type} [FloatOps F]
variable (m : (ℓ : Loc nD τ sig) → Buf (Elt F) ℓ)

theorem hlast : 31 < cfg0.N := by rw [show cfg0.N = 32 from N_0]; decide

/-- Both accumulator windows sit on block (0, 0) at every grid point. -/
theorem acc_index_zero : ∀ t : Fin cfg0.N, (∀ a, win0_3.index t a = 0) ∧ (∀ a, win0_4.index t a = 0) :=
  (by decide +kernel : ∀ t : Fin grid0.N, (∀ a, win0_3.index t a = 0) ∧ (∀ a, win0_4.index t a = 0))

/-- A point that writes an accumulator block back is the last point. -/
theorem eq_last_of_mod (t : Fin cfg0.N) (h : t.val % 32 = 31) : t = ⟨31, hlast⟩ := by
  have hN : cfg0.N = 32 := N_0
  have := t.isLt
  exact Fin.ext (by show t.val = 31; omega)

/-- What the one write-back of the count block writes: the block is the whole [1, 128] array, read at offset zero. -/
theorem count_flushed (c : Dev nD) (t : Fin cfg0.N) (hf : (cfg0.win 3).flush t = true) :
    (dats m 0 c).flushed 3 t = ((cfg0.win 3).blk t).view.read (Elt F) (accC m c 31 hlast) := by
  obtain rfl := eq_last_of_mod t ((flush0_3 t).mp hf)
  show (cfg0.win 3).cut (grid0.coords ⟨31, hlast⟩) ((dats m 0 c).after 3 ⟨31, hlast⟩) = _
  rw [after0_3, outs_count]
  have hoff : (fun a => win0_3.index ⟨31, hlast⟩ a * main_v0_1.ty.shape.size a) = fun _ => 0 :=
    funext fun a => by rw [(acc_index_zero ⟨31, hlast⟩).1 a, Nat.zero_mul]
  exact (Memref.read_access_unit_zero (Elt F) main_v0_1 hoff (fun a => by rw [congrFun hoff a, Nat.zero_add])
    (accC m c 31 hlast)).symm

/-- The count array ends as the count row after the last point. -/
theorem final_count (c : Dev nD) : (dats m 0 c).arrAt 3 cfg0.N = accC m c 31 hlast := by
  refine (dats m 0 c).arrAt_eq_of_cover 3 (accC m c 31 hlast) (count_flushed m c) fun i => ?_
  refine ⟨⟨31, hlast⟩, (flush0_3 _).mpr rfl, ?_⟩
  show i ∈ ((View.whole main_v0_1).slice (win0_3.rect ⟨31, hlast⟩)).set
  rw [View.set_slice_whole, Rect.mem_set_unit]
  intro a
  rw [(acc_index_zero ⟨31, hlast⟩).1 a, Nat.zero_mul, Nat.zero_add]
  exact ⟨Nat.zero_le _, (i a).isLt⟩

/-- What the one write-back of the sum block writes. -/
theorem sum_flushed (c : Dev nD) (t : Fin cfg0.N) (hf : (cfg0.win 4).flush t = true) :
    (dats m 0 c).flushed 4 t = ((cfg0.win 4).blk t).view.read (Elt F) (accS m c 31 hlast) := by
  obtain rfl := eq_last_of_mod t ((flush0_4 t).mp hf)
  show (cfg0.win 4).cut (grid0.coords ⟨31, hlast⟩) ((dats m 0 c).after 4 ⟨31, hlast⟩) = _
  rw [after0_4, outs_sum]
  have hoff : (fun a => win0_4.index ⟨31, hlast⟩ a * main_v0_2.ty.shape.size a) = fun _ => 0 :=
    funext fun a => by rw [(acc_index_zero ⟨31, hlast⟩).2 a, Nat.zero_mul]
  exact (Memref.read_access_unit_zero (Elt F) main_v0_2 hoff (fun a => by rw [congrFun hoff a, Nat.zero_add])
    (accS m c 31 hlast)).symm

/-- The sum array ends as the sum row after the last point. -/
theorem final_sum (c : Dev nD) : (dats m 0 c).arrAt 4 cfg0.N = accS m c 31 hlast := by
  refine (dats m 0 c).arrAt_eq_of_cover 4 (accS m c 31 hlast) (sum_flushed m c) fun i => ?_
  refine ⟨⟨31, hlast⟩, (flush0_4 _).mpr rfl, ?_⟩
  show i ∈ ((View.whole main_v0_2).slice (win0_4.rect ⟨31, hlast⟩)).set
  rw [View.set_slice_whole, Rect.mem_set_unit]
  intro a
  rw [(acc_index_zero ⟨31, hlast⟩).2 a, Nat.zero_mul, Nat.zero_add]
  exact ⟨Nat.zero_le _, (i a).isLt⟩

end anyF

section ideal
variable (m : (ℓ : Loc nD τ sig) → Buf (Elt Ideal) ℓ)

/-- The mask of the second image, pixel by pixel. -/
abbrev maskArr (c : Dev nD) : Buf (Elt Ideal) ((c : Thread nD τ).loc main_v0_0) :=
  fun x => Cert.MCL.maskVal (V m c main_arg1 x)

/-- Where the blocks sit: grid point t works on image t / 2, rows 512 · (t % 2) … 512 · (t % 2) + 511, all 1024
    columns, of the second image and of the mask array alike. -/
theorem blk_index : ∀ t : Fin cfg0.N,
    (win0_2.index t (0 : Fin 4) = t.val / 2 ∧ win0_2.index t (1 : Fin 4) = 0
      ∧ win0_2.index t (2 : Fin 4) = t.val % 2 ∧ win0_2.index t (3 : Fin 4) = 0)
    ∧ (win0_1.index t (0 : Fin 4) = t.val / 2 ∧ win0_1.index t (1 : Fin 4) = 0
      ∧ win0_1.index t (2 : Fin 4) = t.val % 2 ∧ win0_1.index t (3 : Fin 4) = 0) :=
  (by decide +kernel : ∀ t : Fin grid0.N,
    (win0_2.index t (0 : Fin 4) = t.val / 2 ∧ win0_2.index t (1 : Fin 4) = 0
      ∧ win0_2.index t (2 : Fin 4) = t.val % 2 ∧ win0_2.index t (3 : Fin 4) = 0)
    ∧ (win0_1.index t (0 : Fin 4) = t.val / 2 ∧ win0_1.index t (1 : Fin 4) = 0
      ∧ win0_1.index t (2 : Fin 4) = t.val % 2 ∧ win0_1.index t (3 : Fin 4) = 0))

/-- A pixel of point t's block of the second image is the same pixel of the image as the mask block's. -/
theorem blk_emb_eq (t : Fin cfg0.N) (y : S1x1x512x1024.Idx) :
    ((cfg0.win 1).blk t).view.emb y = ((cfg0.win 2).blk t).view.emb y := by
  obtain ⟨⟨a0, a1, a2, a3⟩, b0, b1, b2, b3⟩ := blk_index t
  funext a
  apply Fin.ext
  match a with
  | ⟨0, _⟩ => show win0_1.index t (0 : Fin 4) * 1 + 1 * (y 0).val = win0_2.index t (0 : Fin 4) * 1 + 1 * (y 0).val; rw [a0, b0]
  | ⟨1, _⟩ => show win0_1.index t (1 : Fin 4) * 1 + 1 * (y 1).val = win0_2.index t (1 : Fin 4) * 1 + 1 * (y 1).val; rw [a1, b1]
  | ⟨2, _⟩ => show win0_1.index t (2 : Fin 4) * 512 + 1 * (y 2).val = win0_2.index t (2 : Fin 4) * 512 + 1 * (y 2).val; rw [a2, b2]
  | ⟨3, _⟩ => show win0_1.index t (3 : Fin 4) * 1024 + 1 * (y 3).val = win0_2.index t (3 : Fin 4) * 1024 + 1 * (y 3).val; rw [a3, b3]

/-- What point t writes back is its block of the mask of the second image. -/
theorem mask_flushed (c : Dev nD) (t : Fin cfg0.N) :
    (dats m 0 c).flushed 2 t = ((cfg0.win 2).blk t).view.read (Elt Ideal) (maskArr m c) := by
  show (cfg0.win 2).cut (grid0.coords t) ((dats m 0 c).after 2 t) = _
  rw [after0_2, outs_mask]
  funext y
  show maskB (rblk m c t) y = Cert.MCL.maskVal (V m c main_arg1 (((cfg0.win 2).blk t).view.emb y))
  rw [maskB_apply, ← blk_emb_eq t y]
  rfl

/-- A pixel of the array lies in point t's block exactly when each of its coordinates lies in the block's range. -/
theorem mem_mask_blk (t : Fin cfg0.N) (x : S16x1x1024x1024.Idx) :
    x ∈ ((cfg0.win 2).blk t).view.set ↔ ∀ a : Fin 4, win0_2.index t a * S1x1x512x1024.size a ≤ (x a).val
      ∧ (x a).val < win0_2.index t a * S1x1x512x1024.size a + S1x1x512x1024.size a := by
  show x ∈ ((View.whole main_v0_0).slice (win0_2.rect t)).set ↔ _
  rw [View.set_slice_whole, Rect.mem_set_unit]
  exact Iff.rfl

/-- The mask array ends as the mask of the second image. -/
theorem final_mask (c : Dev nD) : (dats m 0 c).arrAt 2 cfg0.N = maskArr m c := by
  refine (dats m 0 c).arrAt_eq_of_cover 2 (maskArr m c) (fun t _ => mask_flushed m c t) fun x => ?_
  have hN : cfg0.N = 32 := N_0
  have h0 : (x 0).val < 16 := (x 0).isLt
  have h1 : (x 1).val < 1 := (x 1).isLt
  have h2 : (x 2).val < 1024 := (x 2).isLt
  have h3 : (x 3).val < 1024 := (x 3).isLt
  obtain ⟨n, hn⟩ : ∃ n : ℕ, n = 2 * (x 0).val + (x 2).val / 512 := ⟨_, rfl⟩
  have hlt : n < cfg0.N := by omega
  refine ⟨⟨n, hlt⟩, flush0_2 _, ?_⟩
  rw [mem_mask_blk]
  obtain ⟨⟨a0, a1, a2, a3⟩, -⟩ := blk_index ⟨n, hlt⟩
  replace a0 : win0_2.index ⟨n, hlt⟩ (0 : Fin 4) = n / 2 := a0
  replace a2 : win0_2.index ⟨n, hlt⟩ (2 : Fin 4) = n % 2 := a2
  intro a
  match a with
  | ⟨0, _⟩ =>
    show win0_2.index ⟨n, hlt⟩ (0 : Fin 4) * 1 ≤ (x 0).val ∧ (x 0).val < win0_2.index ⟨n, hlt⟩ (0 : Fin 4) * 1 + 1
    rw [a0]; omega
  | ⟨1, _⟩ =>
    show win0_2.index ⟨n, hlt⟩ (1 : Fin 4) * 1 ≤ (x 1).val ∧ (x 1).val < win0_2.index ⟨n, hlt⟩ (1 : Fin 4) * 1 + 1
    rw [a1]; omega
  | ⟨2, _⟩ =>
    show win0_2.index ⟨n, hlt⟩ (2 : Fin 4) * 512 ≤ (x 2).val ∧ (x 2).val < win0_2.index ⟨n, hlt⟩ (2 : Fin 4) * 512 + 512
    rw [a2]; omega
  | ⟨3, _⟩ =>
    show win0_2.index ⟨n, hlt⟩ (3 : Fin 4) * 1024 ≤ (x 3).val ∧ (x 3).val < win0_2.index ⟨n, hlt⟩ (3 : Fin 4) * 1024 + 1024
    rw [a3]; omega
end ideal

end Cert.KernelIdeal.MCL

end
-- ==== Proof.SpecCounts.lean ====
/-
  Counting the pixels of a class, three ways that agree.
  A class's count is a cardinality N ≤ 2^24 (the number of pixels). As extended reals the 0/1 indicators add up
  to N. As 32-bit words the widened bits add up, in whatever order a set fold takes them, to the word of N: the
  running sum never reaches 2^32. And the class loss "0 if the count is 0, else S / max(count, 1), times 0.2"
  is the same number whether the count is the extended real N (compared and maximised as a real) or the word of
  N (compared as an integer, maximised signed, then read as a real): N < 2^31 reads the same signed and unsigned.
-/
import proofs.«152754_j2808908612055_1_alg».proof.Proof.Spec

noncomputable section

namespace Cert.MCL

open Idealize.ShloMosaic Idealize.ShloMosaic.ValueIdx

/-- A widened bit read signed is the bit: 1 when set, 0 when clear. -/
theorem toInt_setWidth_bit (b : BitVec 1) : (b.setWidth 32).toInt = if b = 1#1 then 1 else 0 := by
  rcases BitVec.eq_zero_or_eq_one b with rfl | rfl <;> rfl

/-- The indicator of a class at a pixel is the extended real 1 inside the interval and 0 outside. -/
theorem ind_eq (l h : BitVec 32) (r : Ideal .f32) : ind l h r = if inBand l h r = 1#1 then (1 : EReal) else 0 := by
  unfold ind
  rw [toInt_setWidth_bit]
  split <;> simp

/-- The 0/1 indicators add up to the cardinality. -/
theorem totalC_eq (l h : BitVec 32) (R : Arr.Idx → Ideal .f32) : totalC l h R = (((countN l h R : ℕ) : ℝ) : EReal) := by
  unfold totalC countN
  rw [EReal.coe_natCast, Finset.sum_congr rfl fun x _ => ind_eq l h (R x)]
  exact Finset.sum_boole _ _

/-- The image has 16 · 1 · 1024 · 1024 = 2^24 pixels. -/
theorem card_arr : Fintype.card Arr.Idx = 2 ^ 24 := by
  rw [Shape.card_idx]
  show ∏ a : Fin 4, (![16, 1, 1024, 1024] : Fin 4 → ℕ) a = 2 ^ 24
  rw [Fin.prod_univ_four]
  rfl

/-- A class has at most as many pixels as the image. -/
theorem countN_le (l h : BitVec 32) (R : Arr.Idx → Ideal .f32) : countN l h R ≤ 2 ^ 24 := by
  unfold countN
  exact (Finset.card_le_univ _).trans (le_of_eq card_arr)

/-- Adding the widened bits as 32-bit words, in any order a set fold takes, gives the cardinality: 2^24 pixels do not wrap. -/
theorem fold_count (l h : BitVec 32) (R : Arr.Idx → Ideal .f32) :
    ((Finset.univ : Finset Arr.Idx).fold IntOp.addi 0#32 (fun x => (inBand l h (R x)).setWidth 32)).toNat = countN l h R := by
  classical
  have hsum : ∑ x : Arr.Idx, ((inBand l h (R x)).setWidth 32).toNat = countN l h R := by
    unfold countN
    rw [Finset.card_filter]
    exact Finset.sum_congr rfl fun x _ => StableHlo.Predicate.toNat_setWidth_bit _
  have hlt : ∑ x : Arr.Idx, ((inBand l h (R x)).setWidth 32).toNat < 2 ^ 32 := by
    rw [hsum]; exact lt_of_le_of_lt (countN_le l h R) (by norm_num)
  rw [StableHlo.Predicate.toNat_fold_addi _ _ hlt, hsum]

/-- The f32 word 0x3F800000 is the number 1: sign 0, exponent field 127, fraction 0. -/
theorem ofBits_one_f32 : Ideal.ofBits .f32 0x3F800000#32 = 1 := by
  simp [Ideal.ofBits, Ideal.ieee]
  norm_cast
  norm_num

/-- The class loss is the same from either count. -/
theorem lossK_eq_lossR (N : ℕ) (hN : N ≤ 2 ^ 24) (n : BitVec 32) (hn : n.toNat = N) (S : EReal) :
    lossK (((N : ℕ) : ℝ) : EReal) S = lossR n (Ideal.ofBits .f32 w0 + S) := by
  have hN31 : n.toNat < 2 ^ 31 := by omega
  have hnInt : n.toInt = (N : ℤ) := by rw [StableHlo.Predicate.toInt_eq_toNat_of_lt hN31, hn]
  unfold lossK lossR
  rw [Ideal.ofBits_zero_f32, ofBits_one_f32, zero_add]
  rcases Nat.eq_zero_or_pos N with hz | hpos
  · -- no pixel in the class: both counts are zero and both losses are 0 · 0.2
    subst hz
    have hn0 : n = 0#32 := BitVec.eq_of_toNat_eq (by simpa using hn)
    have h1 : Ideal.cmp .oeq (((0 : ℕ) : ℝ) : EReal) 0 = 1#1 := by simp [Ideal.cmp]
    have h2 : IntOp.cmpi .eq n 0#32 = 1#1 := StableHlo.Predicate.cmpi_eq_iff.mpr hn0
    rw [h1, h2, select_one, select_one]
  · -- at least one pixel: neither count is zero, and max(N, 1) = N read either way
    have hne : n ≠ 0#32 := by
      intro e; rw [e] at hn; simp at hn; omega
    have h1 : Ideal.cmp .oeq (((N : ℕ) : ℝ) : EReal) 0 = 0#1 := by simp [Ideal.cmp, hpos.ne']
    have h2 : IntOp.cmpi .eq n 0#32 = 0#1 := by
      rcases BitVec.eq_zero_or_eq_one (IntOp.cmpi .eq n 0#32) with h | h
      · exact h
      · exact absurd (StableHlo.Predicate.cmpi_eq_iff.mp h) hne
    have hmaxW : (IntOp.maxsi n 1#32).toInt = (N : ℤ) := by
      unfold IntOp.maxsi
      have h1i : (1#32 : BitVec 32).toInt = 1 := by decide
      split <;> rename_i hc <;> simp only [BitVec.slt, hnInt, h1i, decide_eq_true_eq] at hc
      · exact hnInt
      · rw [h1i]; omega
    have hmaxR : max (((N : ℕ) : ℝ) : EReal) 1 = (((N : ℕ) : ℝ) : EReal) := by
      apply max_eq_left
      have : (1 : ℝ) ≤ (N : ℝ) := by exact_mod_cast hpos
      exact_mod_cast this
    rw [h1, h2, select_zero, select_zero, hmaxW, hmaxR]
    simp

end Cert.MCL

end
-- ==== Proof.KValue.lean ====
/-
  The first program's three results as the mathematics of the loss.

  Lane j < 5 of the count array is 0 plus class j's count over the image, which as an extended real is the
  class's cardinality; of the sum array, 0 plus the class's sum. So entry j of the class-loss vector is class j's
  loss, and the total — 0 plus the sum of the five entries — is the five class losses added from 0 left to right,
  addition of extended reals being associative.
-/
import proofs.«152754_j2808908612055_1_alg».proof.Proof.KTail
import proofs.«152754_j2808908612055_1_alg».proof.Proof.KTotals
import proofs.«152754_j2808908612055_1_alg».proof.Proof.KArrays
import proofs.«152754_j2808908612055_1_alg».proof.Proof.SpecCounts

noncomputable section

open Idealize.ShloMosaic Idealize.ShloMosaic.TcCoe Idealize.ShloMosaic.ValueIdx Idealize.SL.Sem
open Idealize.ShloMosaic.Pipeline (Dat)

namespace Cert.KernelIdeal.MCL

open Cert.KernelIdeal Cert.KernelIdeal.Gen

variable (m : (ℓ : Loc nD τ sig) → Buf (Elt Ideal) ℓ)

theorem ofBits_w0 : Ideal.ofBits .f32 Cert.MCL.w0 = 0 := Ideal.ofBits_zero_f32

/-- Entry j of the class-loss vector is class j's loss of the two images. -/
theorem kernel_class (c : Dev nD) (j : Fin 5) :
    lossVec (F := Ideal) ((dats m 0 c).arrAt 3 cfg0.N) ((dats m 0 c).arrAt 4 cfg0.N) (ix1 j)
      = Cert.MCL.classLoss j (Parr m c) (Rarr m c) := by
  rw [lossVec_apply, final_count, final_sum, count_total, sum_total, ofBits_w0, zero_add, zero_add, Cert.MCL.totalC_eq]
  rfl

/-- The total loss is the five class losses added from 0, left to right. -/
theorem kernel_total (c : Dev nD) :
    lossTot (F := Ideal) ((dats m 0 c).arrAt 3 cfg0.N) ((dats m 0 c).arrAt 4 cfg0.N) ix0
      = Cert.MCL.totalLoss (Parr m c) (Rarr m c) := by
  rw [lossTot_apply, Cert.MCL.sum_five, kernel_class m c 0, kernel_class m c 1, kernel_class m c 2, kernel_class m c 3,
    kernel_class m c 4]
  unfold Cert.MCL.totalLoss
  simp only [add_assoc]

end Cert.KernelIdeal.MCL

end
-- ==== Proof.RefTerms.lean ====
/-
  The second program's three results as functions of the two images.

  For an interval [l, h] (f32 words): the pixel mask of the second image R, the number of masked pixels as a
  32-bit sum of the widened bits, the sum of |P - R| over the masked pixels, and the class loss
  (0 if the count is 0, else sum / max(count, 1) read as a float) · 0.2. The total is the five class losses
  added from 0, left to right; the vector of class losses their concatenation; the mask image 2 · class / 4 - 1
  with the class chosen by the last interval containing the pixel.
-/
import proofs.«152754_j2808908612055_1_alg».proof.Proof.Gen.ReferenceIdeal

noncomputable section

namespace Cert.ReferenceIdeal.MCL

open Cert.ReferenceIdeal Cert.ReferenceIdeal.Gen Idealize.ShloMosaic Idealize.ShloMosaic.TcCoe

variable {F : FTy → Type} [FloatOps F]

/-- A scalar word as a full image. -/
abbrev splat (w : BitVec 32) : FVec F S16x1x1024x1024 .f32 :=
  broadcastInDim S16x1x1024x1024 ![] bcast_S_S16x1x1024x1024 (constant S_ .f32 w)
abbrev splatI (k : BitVec 32) : IVec S16x1x1024x1024 32 :=
  broadcastInDim S16x1x1024x1024 ![] bcast_S_S16x1x1024x1024 (constantI S_ 32 k)

/-- The pixel mask "l ≤ R ≤ h". -/
abbrev bandV (l h : BitVec 32) (R : FVec F S16x1x1024x1024 .f32) : IVec S16x1x1024x1024 1 :=
  andi (cmpf .oge R (splat l)) (cmpf .ole R (splat h))

/-- The number of masked pixels, added as 32-bit words. -/
abbrev cntV (l h : BitVec 32) (R : FVec F S16x1x1024x1024 .f32) : IVec S_ 32 :=
  Host.reduce IntOp.addi (extui 32 (bandV l h R) natLt_1_32) (constantI S_ 32 0#32) reducesTo_S16x1x1024x1024_S_d0_1_2_3 h_S_

/-- The sum of |P - R| over the masked pixels. -/
abbrev sumV (l h : BitVec 32) (P R : FVec F S16x1x1024x1024 .f32) : FVec F S_ .f32 :=
  Host.reduceAdd
    (select (bandV l h R) (Host.absf (subf P R))
      (broadcastInDim S16x1x1024x1024 ![] bcast_S_S16x1x1024x1024 (id (constant S_ .f32 0x00000000#32))))
    (constant S_ .f32 0x00000000#32) reducesTo_S16x1x1024x1024_S_d0_1_2_3 h_S_

/-- The class loss. -/
abbrev lossV (l h : BitVec 32) (P R : FVec F S16x1x1024x1024 .f32) : FVec F S_ .f32 :=
  mulf
    (select (cmpi .eq (cntV l h R) (constantI S_ 32 0#32)) (id (constant S_ .f32 0x00000000#32))
      (Host.divf (sumV l h P R) (sitofp .f32 (maxsi (cntV l h R) (constantI S_ 32 1#32)))))
    (constant S_ .f32 0x3E4CCCCD#32)

/-- The five class losses. -/
abbrev loss0 (P R : FVec F S16x1x1024x1024 .f32) := lossV 0xBF800000#32 0x3F800000#32 P R
abbrev loss1 (P R : FVec F S16x1x1024x1024 .f32) := lossV 0xBF800000#32 0xBF000000#32 P R
abbrev loss2 (P R : FVec F S16x1x1024x1024 .f32) := lossV 0xBF000000#32 0x00000000#32 P R
abbrev loss3 (P R : FVec F S16x1x1024x1024 .f32) := lossV 0x00000000#32 0x3F000000#32 P R
abbrev loss4 (P R : FVec F S16x1x1024x1024 .f32) := lossV 0x3F000000#32 0x3F800000#32 P R

/-- The total loss: from 0, left to right. -/
def refTot (P R : FVec F S16x1x1024x1024 .f32) : FVec F S_ .f32 :=
  addf (addf (addf (addf (addf (constant S_ .f32 0x00000000#32) (loss0 P R)) (loss1 P R)) (loss2 P R)) (loss3 P R)) (loss4 P R)

/-- The vector of the five class losses. -/
def refVec (P R : FVec F S16x1x1024x1024 .f32) : FVec F S5 .f32 :=
  concatenate S5 0
    [⟨S1, (broadcastInDim S1 ![] bcast_S_S1 (loss0 P R))⟩, ⟨S1, (broadcastInDim S1 ![] bcast_S_S1 (loss1 P R))⟩,
     ⟨S1, (broadcastInDim S1 ![] bcast_S_S1 (loss2 P R))⟩, ⟨S1, (broadcastInDim S1 ![] bcast_S_S1 (loss3 P R))⟩,
     ⟨S1, (broadcastInDim S1 ![] bcast_S_S1 (loss4 P R))⟩]
    concatenates_S1_S1_S1_S1_S1_S5_d0

/-- The class image: the last interval containing the pixel, 0 if none. -/
abbrev clsV (R : FVec F S16x1x1024x1024 .f32) : IVec S16x1x1024x1024 32 :=
  select (bandV 0x3F000000#32 0x3F800000#32 R) (splatI 4#32)
    (select (bandV 0x00000000#32 0x3F000000#32 R) (splatI 3#32)
      (select (bandV 0xBF000000#32 0x00000000#32 R) (splatI 2#32)
        (select (bandV 0xBF800000#32 0xBF000000#32 R) (splatI 1#32)
          (select (bandV 0xBF800000#32 0x3F800000#32 R) (splatI 0#32) (splatI 0#32)))))

/-- The mask image: 2 · class / 4 - 1. -/
def refMask (R : FVec F S16x1x1024x1024 .f32) : FVec F S16x1x1024x1024 .f32 :=
  subf (Host.divf (mulf (splat 0x40000000#32) (sitofp .f32 (clsV R))) (splat 0x40800000#32)) (splat 0x3F800000#32)

end Cert.ReferenceIdeal.MCL

end
-- ==== Proof.RefValue.lean ====
/-
  The second program's results, read over the extended reals.

  The mask image at a pixel is 2 · class / 4 - 1 of that pixel. Entry j of the class-loss vector is class j's
  loss: the 32-bit count is the class's cardinality (2^24 pixels do not wrap a 32-bit sum), the float sum is
  0 plus the class's sum, and the class loss from the word count is the class loss from the cardinality. The
  total is the five class losses added from 0, left to right.
-/
import proofs.«152754_j2808908612055_1_alg».proof.Proof.RefTerms
import proofs.«152754_j2808908612055_1_alg».proof.Proof.SpecClasses
import proofs.«152754_j2808908612055_1_alg».proof.Proof.SpecCounts
import Idealize.ShloMosaic.PureOps.Ideal.Laws
import Idealize.ShloMosaic.Lib.ValueIdx
import Idealize.ShloMosaic.Lib.StableHlo.Predicate

noncomputable section

open Idealize.ShloMosaic Idealize.ShloMosaic.TcCoe Idealize.ShloMosaic.ValueIdx

namespace Cert.ReferenceIdeal.MCL

open Cert.ReferenceIdeal Cert.ReferenceIdeal.Gen

/-- The 32-bit count of an interval's pixels, read as a number, is the interval's cardinality: a reduction to
    rank 0 runs over every pixel (all of them drop to the one index of rank 0), and the widened bits of 2^24
    pixels add up without wrapping. -/
theorem cntV_toNat (l h : BitVec 32) (R : FVec Ideal S16x1x1024x1024 .f32) :
    (cntV (F := Ideal) l h R ix0).toNat = Cert.MCL.countN l h R := by
  show (Host.reduce IntOp.addi (extui 32 (bandV (F := Ideal) l h R) natLt_1_32) (constantI S_ 32 0#32)
    reducesTo_S16x1x1024x1024_S_d0_1_2_3 h_S_ ix0).toNat = _
  rw [Host.reduce_eq_fold, Finset.filter_true_of_mem fun i _ => (eq_ix0 _).trans (eq_ix0 _).symm]
  exact Cert.MCL.fold_count l h R

/-- The float sum over an interval's pixels is 0 plus the interval's sum: over the extended reals the sum to
    rank 0 is the initial value plus the sum over every pixel, and each summand is |p - r| inside the interval
    and 0 outside. -/
theorem sumV_eq (l h : BitVec 32) (P R : FVec Ideal S16x1x1024x1024 .f32) :
    sumV (F := Ideal) l h P R ix0 = Ideal.ofBits .f32 Cert.MCL.w0 + Cert.MCL.totalS l h P R := by
  show Ideal.hostReduceAdd reducesTo_S16x1x1024x1024_S_d0_1_2_3 _ _ ix0 = _
  rw [Ideal.hostReduceAdd_total _ (fun b => b.elim0)]
  rfl

/-- The class-loss chain at the one index of rank 0, for any count word and any sum: 0 if the count is 0, else
    the sum over max(count, 1) read signed, times 0.2. -/
theorem lossForm (c : IVec S_ 32) (s : FVec Ideal S_ .f32) :
    mulf
      (select (cmpi .eq c (constantI S_ 32 0#32)) (id (constant S_ .f32 0x00000000#32))
        (Host.divf s (sitofp .f32 (maxsi c (constantI S_ 32 1#32)))))
      (constant S_ .f32 0x3E4CCCCD#32) ix0 = Cert.MCL.lossR (c ix0) (s ix0) := rfl

/-- An interval's loss is the class loss from the interval's cardinality and its sum. -/
theorem lossV_apply (l h : BitVec 32) (P R : FVec Ideal S16x1x1024x1024 .f32) :
    lossV (F := Ideal) l h P R ix0
      = Cert.MCL.lossK (((Cert.MCL.countN l h R : ℕ) : ℝ) : EReal) (Cert.MCL.totalS l h P R) := by
  rw [Cert.MCL.lossK_eq_lossR (Cert.MCL.countN l h R) (Cert.MCL.countN_le l h R) (cntV (F := Ideal) l h R ix0)
    (cntV_toNat l h R) (Cert.MCL.totalS l h P R), ← sumV_eq]
  exact lossForm (cntV (F := Ideal) l h R) (sumV (F := Ideal) l h P R)

/-- The five intervals are the five classes' intervals. -/
theorem loss0_apply (P R : FVec Ideal S16x1x1024x1024 .f32) :
    loss0 (F := Ideal) P R ix0 = Cert.MCL.classLoss 0 P R := lossV_apply _ _ P R
theorem loss1_apply (P R : FVec Ideal S16x1x1024x1024 .f32) :
    loss1 (F := Ideal) P R ix0 = Cert.MCL.classLoss 1 P R := lossV_apply _ _ P R
theorem loss2_apply (P R : FVec Ideal S16x1x1024x1024 .f32) :
    loss2 (F := Ideal) P R ix0 = Cert.MCL.classLoss 2 P R := lossV_apply _ _ P R
theorem loss3_apply (P R : FVec Ideal S16x1x1024x1024 .f32) :
    loss3 (F := Ideal) P R ix0 = Cert.MCL.classLoss 3 P R := lossV_apply _ _ P R
theorem loss4_apply (P R : FVec Ideal S16x1x1024x1024 .f32) :
    loss4 (F := Ideal) P R ix0 = Cert.MCL.classLoss 4 P R := lossV_apply _ _ P R

/-- Five one-entry pieces, each a broadcast scalar, laid end to end and read at entry j: the j-th scalar. Entry j
    falls in piece j at offset 0, and a broadcast scalar reads the scalar at the one index of rank 0. -/
theorem cat5_apply (v0 v1 v2 v3 v4 : FVec Ideal S_ .f32) (j : Fin 5) :
    concatenate S5 0
      [⟨S1, broadcastInDim S1 ![] bcast_S_S1 v0⟩, ⟨S1, broadcastInDim S1 ![] bcast_S_S1 v1⟩,
       ⟨S1, broadcastInDim S1 ![] bcast_S_S1 v2⟩, ⟨S1, broadcastInDim S1 ![] bcast_S_S1 v3⟩,
       ⟨S1, broadcastInDim S1 ![] bcast_S_S1 v4⟩] concatenates_S1_S1_S1_S1_S1_S5_d0 (ix1 j)
      = (![v0 ix0, v1 ix0, v2 ix0, v3 ix0, v4 ix0] : Fin 5 → Ideal .f32) j := by
  fin_cases j
  · exact congrArg v0 (eq_ix0 _)
  · exact congrArg v1 (eq_ix0 _)
  · exact congrArg v2 (eq_ix0 _)
  · exact congrArg v3 (eq_ix0 _)
  · exact congrArg v4 (eq_ix0 _)

/-- Five scalars added to 0 from the left, read at the one index of rank 0. -/
theorem totForm (a b c d e : FVec Ideal S_ .f32) :
    addf (addf (addf (addf (addf (constant S_ .f32 0x00000000#32) a) b) c) d) e ix0
      = ((((Ideal.ofBits .f32 Cert.MCL.w0 + a ix0) + b ix0) + c ix0) + d ix0) + e ix0 := rfl

theorem refMask_apply (R : FVec Ideal S16x1x1024x1024 .f32) (x : S16x1x1024x1024.Idx) :
    refMask (F := Ideal) R x = Cert.MCL.maskVal (R x) := by
  rfl

theorem refVec_apply (P R : FVec Ideal S16x1x1024x1024 .f32) (j : Fin 5) :
    refVec (F := Ideal) P R (ix1 j) = Cert.MCL.classLoss j P R := by
  unfold refVec
  rw [cat5_apply, loss0_apply, loss1_apply, loss2_apply, loss3_apply, loss4_apply]
  fin_cases j <;> rfl

theorem refTot_apply (P R : FVec Ideal S16x1x1024x1024 .f32) :
    refTot (F := Ideal) P R ix0 = Cert.MCL.totalLoss P R := by
  unfold refTot
  rw [totForm, loss0_apply, loss1_apply, loss2_apply, loss3_apply, loss4_apply]
  rfl

end Cert.ReferenceIdeal.MCL

end
-- ==== Proof.RefImports.lean ====
/-
  The reference's run; the hand modules that speak of the reference's results import this one.
-/
import proofs.«152754_j2808908612055_1_alg».proof.Proof.RefRun
-- ==== Proof.RefNamed.lean ====
/-
  The second program's run, read stretch by stretch, with its three results named.

  @main is a straight line of 176 host operations: five stretches, one per class (the class's pixel mask, the
  class image updated where the mask is set, the 32-bit count, the masked sum of |P - R|, the class loss), and a
  tail (the five losses added from 0 and concatenated; the mask image from the class image). A stretch reads only
  the two images, |P - R| (computed once, in the first stretch) and the class image so far, and writes buffers no
  other stretch writes; so the buffers' contents after the whole line are the tail's results over what the five
  stretches leave, each stretch read on its own over arbitrary contents before it. (The selects that the
  program calls as functions are inlined; their operations are read as plain operations on their buffers.)
-/
import proofs.«152754_j2808908612055_1_alg».proof.Proof.RefImports
import proofs.«152754_j2808908612055_1_alg».proof.Proof.RefTerms
import Idealize.ShloMosaic.Lib.StableHlo.Run
import Idealize.ShloMosaic.Lib.Pipeline.Frame

noncomputable section

open Idealize.ShloMosaic Idealize.ShloMosaic.TcCoe Idealize.SL.Sem Idealize.ShloMosaic.StableHlo

namespace Cert.ReferenceIdeal.MCL

open Cert.ReferenceIdeal Cert.ReferenceIdeal.Gen Cert.ReferenceIdeal.Value

variable {F : FTy → Type} [FloatOps F]

/-- A class's masked sum and loss with the image D of absolute differences given. -/
abbrev sumD (l h : BitVec 32) (D R : FVec F S16x1x1024x1024 .f32) : FVec F S_ .f32 :=
  Host.reduceAdd
    (select (bandV l h R) D
      (broadcastInDim S16x1x1024x1024 ![] bcast_S_S16x1x1024x1024 (id (constant S_ .f32 0x00000000#32))))
    (constant S_ .f32 0x00000000#32) reducesTo_S16x1x1024x1024_S_d0_1_2_3 h_S_

abbrev lossD (l h : BitVec 32) (D R : FVec F S16x1x1024x1024 .f32) : FVec F S_ .f32 :=
  mulf
    (select (cmpi .eq (cntV l h R) (constantI S_ 32 0#32)) (id (constant S_ .f32 0x00000000#32))
      (Host.divf (sumD l h D R) (sitofp .f32 (maxsi (cntV l h R) (constantI S_ 32 1#32)))))
    (constant S_ .f32 0x3E4CCCCD#32)

/-- @main's 176 operations with the operations of the inlined selects written as plain operations (a typed
    reference's operation is the plain one at its buffer, its function between two identity transports). -/
abbrev opsP : List (HloOp τ sig (Elt F)) :=
  [ binary main_arg0 main_arg1 main_v0 (subf : (⟨S16x1x1024x1024, .f32⟩ : BufTy).Contents (Elt F) → (⟨S16x1x1024x1024, .f32⟩ : BufTy).Contents (Elt F) → (⟨S16x1x1024x1024, .f32⟩ : BufTy).Contents (Elt F)),
    unary main_v0 main_v1 (Host.absf : (⟨S16x1x1024x1024, .f32⟩ : BufTy).Contents (Elt F) → (⟨S16x1x1024x1024, .f32⟩ : BufTy).Contents (Elt F)),
    nullary main_c (constantI S_ 32 0#32),
    unary main_c main_v2 (broadcastInDim S16x1x1024x1024 ![] bcast_S_S16x1x1024x1024 : (⟨S_, .i32⟩ : BufTy).Contents (Elt F) → (⟨S16x1x1024x1024, .i32⟩ : BufTy).Contents (Elt F)),
    nullary main_cst (constant S_ .f32 0xBF800000#32),
    unary main_cst main_v3 (broadcastInDim S16x1x1024x1024 ![] bcast_S_S16x1x1024x1024 : (⟨S_, .f32⟩ : BufTy).Contents (Elt F) → (⟨S16x1x1024x1024, .f32⟩ : BufTy).Contents (Elt F)),
    binary main_arg1 main_v3 main_v4 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    nullary main_cst_0 (constant S_ .f32 0x3F800000#32),
    unary main_cst_0 main_v5 (broadcastInDim S16x1x1024x1024 ![] bcast_S_S16x1x1024x1024 : (⟨S_, .f32⟩ : BufTy).Contents (Elt F) → (⟨S16x1x1024x1024, .f32⟩ : BufTy).Contents (Elt F)),
    binary main_arg1 main_v5 main_v6 (cmpf .ole : (⟨S16x1x1024x1024, .f32⟩ : BufTy).Contents (Elt F) → (⟨S16x1x1024x1024, .f32⟩ : BufTy).Contents (Elt F) → (⟨S16x1x1024x1024, .i1⟩ : BufTy).Contents (Elt F)),
    binary main_v4 main_v6 main_v7 (andi : (⟨S16x1x1024x1024, .i1⟩ : BufTy).Contents (Elt F) → (⟨S16x1x1024x1024, .i1⟩ : BufTy).Contents (Elt F) → (⟨S16x1x1024x1024, .i1⟩ : BufTy).Contents (Elt F)),
    nullary main_c_1 (constantI S_ 32 0#32),
    unary main_c_1 main_call0_v0 ((broadcastInDim S16x1x1024x1024 ![] bcast_S_S16x1x1024x1024) : (⟨S_, .i32⟩ : BufTy).Contents (Elt F) → (⟨S16x1x1024x1024, .i32⟩ : BufTy).Contents (Elt F)),
    ternary main_v7 main_call0_v0 main_v2 main_v8 (select : (⟨S16x1x1024x1024, .i1⟩ : BufTy).Contents (Elt F) → (⟨S16x1x1024x1024, .i32⟩ : BufTy).Contents (Elt F) → (⟨S16x1x1024x1024, .i32⟩ : BufTy).Contents (Elt F) → (⟨S16x1x1024x1024, .i32⟩ : BufTy).Contents (Elt F)),
    unary main_v7 main_v9 ((extui 32 · natLt_1_32) : (⟨S16x1x1024x1024, .i1⟩ : BufTy).Contents (Elt F) → (⟨S16x1x1024x1024, .i32⟩ : BufTy).Contents (Elt F)),
    nullary main_c_2 (constantI S_ 32 0#32),
    binary main_v9 main_c_2 main_v10 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    nullary main_cst_3 (constant S_ .f32 0x00000000#32),
    unary main_cst_3 main_call1_v0 (id : (⟨S_, .f32⟩ : BufTy).Contents (Elt F) → (⟨S_, .f32⟩ : BufTy).Contents (Elt F)),
    unary main_call1_v0 main_call1_v1 ((broadcastInDim S16x1x1024x1024 ![] bcast_S_S16x1x1024x1024) : (⟨S_, .f32⟩ : BufTy).Contents (Elt F) → (⟨S16x1x1024x1024, .f32⟩ : BufTy).Contents (Elt F)),
    ternary main_v7 main_v1 main_call1_v1 main_v11 (select : (⟨S16x1x1024x1024, .i1⟩ : BufTy).Contents (Elt F) → (⟨S16x1x1024x1024, .f32⟩ : BufTy).Contents (Elt F) → (⟨S16x1x1024x1024, .f32⟩ : BufTy).Contents (Elt F) → (⟨S16x1x1024x1024, .f32⟩ : BufTy).Contents (Elt F)),
    nullary main_cst_4 (constant S_ .f32 0x00000000#32),
    binary main_v11 main_cst_4 main_v12 ((fun x v => Host.reduceAdd x v reducesTo_S16x1x1024x1024_S_d0_1_2_3 h_S_) : (⟨S16x1x1024x1024, .f32⟩ : BufTy).Contents (Elt F) → (⟨S_, .f32⟩ : BufTy).Contents (Elt F) → (⟨S_, .f32⟩ : BufTy).Contents (Elt F)),
    nullary main_c_5 (constantI S_ 32 1#32),
    binary main_v10 main_c_5 main_v13 (maxsi : (⟨S_, .i32⟩ : BufTy).Contents (Elt F) → (⟨S_, .i32⟩ : BufTy).Contents (Elt F) → (⟨S_, .i32⟩ : BufTy).Contents (Elt F)),
    unary main_v13 main_v14 (sitofp .f32 : (⟨S_, .i32⟩ : BufTy).Contents (Elt F) → (⟨S_, .f32⟩ : BufTy).Contents (Elt F)),
    nullary main_c_6 (constantI S_ 32 0#32),
    binary main_v10 main_c_6 main_v15 (cmpi .eq : (⟨S_, .i32⟩ : BufTy).Contents (Elt F) → (⟨S_, .i32⟩ : BufTy).Contents (Elt F) → (⟨S_, .i1⟩ : BufTy).Contents (Elt F)),
    binary main_v12 main_v14 main_v16 (Host.divf : (⟨S_, .f32⟩ : BufTy).Contents (Elt F) → (⟨S_, .f32⟩ : BufTy).Contents (Elt F) → (⟨S_, .f32⟩ : BufTy).Contents (Elt F)),
    nullary main_cst_7 (constant S_ .f32 0x00000000#32),
    unary main_cst_7 main_call2_v0 (id : (⟨S_, .f32⟩ : BufTy).Contents (Elt F) → (⟨S_, .f32⟩ : BufTy).Contents (Elt F)),
    ternary main_v15 main_call2_v0 main_v16 main_v17 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    nullary main_cst_8 (constant S_ .f32 0x3E4CCCCD#32),
    binary main_v17 main_cst_8 main_v18 (mulf : (⟨S_, .f32⟩ : BufTy).Contents (Elt F) → (⟨S_, .f32⟩ : BufTy).Contents (Elt F) → (⟨S_, .f32⟩ : BufTy).Contents (Elt F)),
    nullary main_cst_9 (constant S_ .f32 0xBF800000#32),
    unary main_cst_9 main_v19 (broadcastInDim S16x1x1024x1024 ![] bcast_S_S16x1x1024x1024 : (⟨S_, .f32⟩ : BufTy).Contents (Elt F) → (⟨S16x1x1024x1024, .f32⟩ : BufTy).Contents (Elt F)),
    binary main_arg1 main_v19 main_v20 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    nullary main_cst_10 (constant S_ .f32 0xBF000000#32),
    unary main_cst_10 main_v21 (broadcastInDim S16x1x1024x1024 ![] bcast_S_S16x1x1024x1024 : (⟨S_, .f32⟩ : BufTy).Contents (Elt F) → (⟨S16x1x1024x1024, .f32⟩ : BufTy).Contents (Elt F)),
    binary main_arg1 main_v21 main_v22 (cmpf .ole : (⟨S16x1x1024x1024, .f32⟩ : BufTy).Contents (Elt F) → (⟨S16x1x1024x1024, .f32⟩ : BufTy).Contents (Elt F) → (⟨S16x1x1024x1024, .i1⟩ : BufTy).Contents (Elt F)),
    binary main_v20 main_v22 main_v23 (andi : (⟨S16x1x1024x1024, .i1⟩ : BufTy).Contents (Elt F) → (⟨S16x1x1024x1024, .i1⟩ : BufTy).Contents (Elt F) → (⟨S16x1x1024x1024, .i1⟩ : BufTy).Contents (Elt F)),
    nullary main_c_11 (constantI S_ 32 1#32),
    unary main_c_11 main_call3_v0 ((broadcastInDim S16x1x1024x1024 ![] bcast_S_S16x1x1024x1024) : (⟨S_, .i32⟩ : BufTy).Contents (Elt F) → (⟨S16x1x1024x1024, .i32⟩ : BufTy).Contents (Elt F)),
    ternary main_v23 main_call3_v0 main_v8 main_v24 (select : (⟨S16x1x1024x1024, .i1⟩ : BufTy).Contents (Elt F) → (⟨S16x1x1024x1024, .i32⟩ : BufTy).Contents (Elt F) → (⟨S16x1x1024x1024, .i32⟩ : BufTy).Contents (Elt F) → (⟨S16x1x1024x1024, .i32⟩ : BufTy).Contents (Elt F)),
    unary main_v23 main_v25 ((extui 32 · natLt_1_32) : (⟨S16x1x1024x1024, .i1⟩ : BufTy).Contents (Elt F) → (⟨S16x1x1024x1024, .i32⟩ : BufTy).Contents (Elt F)),
    nullary main_c_12 (constantI S_ 32 0#32),
    binary main_v25 main_c_12 main_v26 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    nullary main_cst_13 (constant S_ .f32 0x00000000#32),
    unary main_cst_13 main_call4_v0 (id : (⟨S_, .f32⟩ : BufTy).Contents (Elt F) → (⟨S_, .f32⟩ : BufTy).Contents (Elt F)),
    unary main_call4_v0 main_call4_v1 ((broadcastInDim S16x1x1024x1024 ![] bcast_S_S16x1x1024x1024) : (⟨S_, .f32⟩ : BufTy).Contents (Elt F) → (⟨S16x1x1024x1024, .f32⟩ : BufTy).Contents (Elt F)),
    ternary main_v23 main_v1 main_call4_v1 main_v27 (select : (⟨S16x1x1024x1024, .i1⟩ : BufTy).Contents (Elt F) → (⟨S16x1x1024x1024, .f32⟩ : BufTy).Contents (Elt F) → (⟨S16x1x1024x1024, .f32⟩ : BufTy).Contents (Elt F) → (⟨S16x1x1024x1024, .f32⟩ : BufTy).Contents (Elt F)),
    nullary main_cst_14 (constant S_ .f32 0x00000000#32),
    binary main_v27 main_cst_14 main_v28 ((fun x v => Host.reduceAdd x v reducesTo_S16x1x1024x1024_S_d0_1_2_3 h_S_) : (⟨S16x1x1024x1024, .f32⟩ : BufTy).Contents (Elt F) → (⟨S_, .f32⟩ : BufTy).Contents (Elt F) → (⟨S_, .f32⟩ : BufTy).Contents (Elt F)),
    nullary main_c_15 (constantI S_ 32 1#32),
    binary main_v26 main_c_15 main_v29 (maxsi : (⟨S_, .i32⟩ : BufTy).Contents (Elt F) → (⟨S_, .i32⟩ : BufTy).Contents (Elt F) → (⟨S_, .i32⟩ : BufTy).Contents (Elt F)),
    unary main_v29 main_v30 (sitofp .f32 : (⟨S_, .i32⟩ : BufTy).Contents (Elt F) → (⟨S_, .f32⟩ : BufTy).Contents (Elt F)),
    nullary main_c_16 (constantI S_ 32 0#32),
    binary main_v26 main_c_16 main_v31 (cmpi .eq : (⟨S_, .i32⟩ : BufTy).Contents (Elt F) → (⟨S_, .i32⟩ : BufTy).Contents (Elt F) → (⟨S_, .i1⟩ : BufTy).Contents (Elt F)),
    binary main_v28 main_v30 main_v32 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    unary main_cst_17 main_call5_v0 (id : (⟨S_, .f32⟩ : BufTy).Contents (Elt F) → (⟨S_, .f32⟩ : BufTy).Contents (Elt F)),
    ternary main_v31 main_call5_v0 main_v32 main_v33 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    nullary main_cst_18 (constant S_ .f32 0x3E4CCCCD#32),
    binary main_v33 main_cst_18 main_v34 (mulf : (⟨S_, .f32⟩ : BufTy).Contents (Elt F) → (⟨S_, .f32⟩ : BufTy).Contents (Elt F) → (⟨S_, .f32⟩ : BufTy).Contents (Elt F)),
    nullary main_cst_19 (constant S_ .f32 0xBF000000#32),
    unary main_cst_19 main_v35 (broadcastInDim S16x1x1024x1024 ![] bcast_S_S16x1x1024x1024 : (⟨S_, .f32⟩ : BufTy).Contents (Elt F) → (⟨S16x1x1024x1024, .f32⟩ : BufTy).Contents (Elt F)),
    binary main_arg1 main_v35 main_v36 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    nullary main_cst_20 (constant S_ .f32 0x00000000#32),
    unary main_cst_20 main_v37 (broadcastInDim S16x1x1024x1024 ![] bcast_S_S16x1x1024x1024 : (⟨S_, .f32⟩ : BufTy).Contents (Elt F) → (⟨S16x1x1024x1024, .f32⟩ : BufTy).Contents (Elt F)),
    binary main_arg1 main_v37 main_v38 (cmpf .ole : (⟨S16x1x1024x1024, .f32⟩ : BufTy).Contents (Elt F) → (⟨S16x1x1024x1024, .f32⟩ : BufTy).Contents (Elt F) → (⟨S16x1x1024x1024, .i1⟩ : BufTy).Contents (Elt F)),
    binary main_v36 main_v38 main_v39 (andi : (⟨S16x1x1024x1024, .i1⟩ : BufTy).Contents (Elt F) → (⟨S16x1x1024x1024, .i1⟩ : BufTy).Contents (Elt F) → (⟨S16x1x1024x1024, .i1⟩ : BufTy).Contents (Elt F)),
    nullary main_c_21 (constantI S_ 32 2#32),
    unary main_c_21 main_call6_v0 ((broadcastInDim S16x1x1024x1024 ![] bcast_S_S16x1x1024x1024) : (⟨S_, .i32⟩ : BufTy).Contents (Elt F) → (⟨S16x1x1024x1024, .i32⟩ : BufTy).Contents (Elt F)),
    ternary main_v39 main_call6_v0 main_v24 main_v40 (select : (⟨S16x1x1024x1024, .i1⟩ : BufTy).Contents (Elt F) → (⟨S16x1x1024x1024, .i32⟩ : BufTy).Contents (Elt F) → (⟨S16x1x1024x1024, .i32⟩ : BufTy).Contents (Elt F) → (⟨S16x1x1024x1024, .i32⟩ : BufTy).Contents (Elt F)),
    unary main_v39 main_v41 ((extui 32 · natLt_1_32) : (⟨S16x1x1024x1024, .i1⟩ : BufTy).Contents (Elt F) → (⟨S16x1x1024x1024, .i32⟩ : BufTy).Contents (Elt F)),
    nullary main_c_22 (constantI S_ 32 0#32),
    binary main_v41 main_c_22 main_v42 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    nullary main_cst_23 (constant S_ .f32 0x00000000#32),
    unary main_cst_23 main_call7_v0 (id : (⟨S_, .f32⟩ : BufTy).Contents (Elt F) → (⟨S_, .f32⟩ : BufTy).Contents (Elt F)),
    unary main_call7_v0 main_call7_v1 ((broadcastInDim S16x1x1024x1024 ![] bcast_S_S16x1x1024x1024) : (⟨S_, .f32⟩ : BufTy).Contents (Elt F) → (⟨S16x1x1024x1024, .f32⟩ : BufTy).Contents (Elt F)),
    ternary main_v39 main_v1 main_call7_v1 main_v43 (select : (⟨S16x1x1024x1024, .i1⟩ : BufTy).Contents (Elt F) → (⟨S16x1x1024x1024, .f32⟩ : BufTy).Contents (Elt F) → (⟨S16x1x1024x1024, .f32⟩ : BufTy).Contents (Elt F) → (⟨S16x1x1024x1024, .f32⟩ : BufTy).Contents (Elt F)),
    nullary main_cst_24 (constant S_ .f32 0x00000000#32),
    binary main_v43 main_cst_24 main_v44 ((fun x v => Host.reduceAdd x v reducesTo_S16x1x1024x1024_S_d0_1_2_3 h_S_) : (⟨S16x1x1024x1024, .f32⟩ : BufTy).Contents (Elt F) → (⟨S_, .f32⟩ : BufTy).Contents (Elt F) → (⟨S_, .f32⟩ : BufTy).Contents (Elt F)),
    nullary main_c_25 (constantI S_ 32 1#32),
    binary main_v42 main_c_25 main_v45 (maxsi : (⟨S_, .i32⟩ : BufTy).Contents (Elt F) → (⟨S_, .i32⟩ : BufTy).Contents (Elt F) → (⟨S_, .i32⟩ : BufTy).Contents (Elt F)),
    unary main_v45 main_v46 (sitofp .f32 : (⟨S_, .i32⟩ : BufTy).Contents (Elt F) → (⟨S_, .f32⟩ : BufTy).Contents (Elt F)),
    nullary main_c_26 (constantI S_ 32 0#32),
    binary main_v42 main_c_26 main_v47 (cmpi .eq : (⟨S_, .i32⟩ : BufTy).Contents (Elt F) → (⟨S_, .i32⟩ : BufTy).Contents (Elt F) → (⟨S_, .i1⟩ : BufTy).Contents (Elt F)),
    binary main_v44 main_v46 main_v48 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    unary main_cst_27 main_call8_v0 (id : (⟨S_, .f32⟩ : BufTy).Contents (Elt F) → (⟨S_, .f32⟩ : BufTy).Contents (Elt F)),
    ternary main_v47 main_call8_v0 main_v48 main_v49 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    nullary main_cst_28 (constant S_ .f32 0x3E4CCCCD#32),
    binary main_v49 main_cst_28 main_v50 (mulf : (⟨S_, .f32⟩ : BufTy).Contents (Elt F) → (⟨S_, .f32⟩ : BufTy).Contents (Elt F) → (⟨S_, .f32⟩ : BufTy).Contents (Elt F)),
    nullary main_cst_29 (constant S_ .f32 0x00000000#32),
    unary main_cst_29 main_v51 (broadcastInDim S16x1x1024x1024 ![] bcast_S_S16x1x1024x1024 : (⟨S_, .f32⟩ : BufTy).Contents (Elt F) → (⟨S16x1x1024x1024, .f32⟩ : BufTy).Contents (Elt F)),
    binary main_arg1 main_v51 main_v52 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    nullary main_cst_30 (constant S_ .f32 0x3F000000#32),
    unary main_cst_30 main_v53 (broadcastInDim S16x1x1024x1024 ![] bcast_S_S16x1x1024x1024 : (⟨S_, .f32⟩ : BufTy).Contents (Elt F) → (⟨S16x1x1024x1024, .f32⟩ : BufTy).Contents (Elt F)),
    binary main_arg1 main_v53 main_v54 (cmpf .ole : (⟨S16x1x1024x1024, .f32⟩ : BufTy).Contents (Elt F) → (⟨S16x1x1024x1024, .f32⟩ : BufTy).Contents (Elt F) → (⟨S16x1x1024x1024, .i1⟩ : BufTy).Contents (Elt F)),
    binary main_v52 main_v54 main_v55 (andi : (⟨S16x1x1024x1024, .i1⟩ : BufTy).Contents (Elt F) → (⟨S16x1x1024x1024, .i1⟩ : BufTy).Contents (Elt F) → (⟨S16x1x1024x1024, .i1⟩ : BufTy).Contents (Elt F)),
    nullary main_c_31 (constantI S_ 32 3#32),
    unary main_c_31 main_call9_v0 ((broadcastInDim S16x1x1024x1024 ![] bcast_S_S16x1x1024x1024) : (⟨S_, .i32⟩ : BufTy).Contents (Elt F) → (⟨S16x1x1024x1024, .i32⟩ : BufTy).Contents (Elt F)),
    ternary main_v55 main_call9_v0 main_v40 main_v56 (select : (⟨S16x1x1024x1024, .i1⟩ : BufTy).Contents (Elt F) → (⟨S16x1x1024x1024, .i32⟩ : BufTy).Contents (Elt F) → (⟨S16x1x1024x1024, .i32⟩ : BufTy).Contents (Elt F) → (⟨S16x1x1024x1024, .i32⟩ : BufTy).Contents (Elt F)),
    unary main_v55 main_v57 ((extui 32 · natLt_1_32) : (⟨S16x1x1024x1024, .i1⟩ : BufTy).Contents (Elt F) → (⟨S16x1x1024x1024, .i32⟩ : BufTy).Contents (Elt F)),
    nullary main_c_32 (constantI S_ 32 0#32),
    binary main_v57 main_c_32 main_v58 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    nullary main_cst_33 (constant S_ .f32 0x00000000#32),
    unary main_cst_33 main_call10_v0 (id : (⟨S_, .f32⟩ : BufTy).Contents (Elt F) → (⟨S_, .f32⟩ : BufTy).Contents (Elt F)),
    unary main_call10_v0 main_call10_v1 ((broadcastInDim S16x1x1024x1024 ![] bcast_S_S16x1x1024x1024) : (⟨S_, .f32⟩ : BufTy).Contents (Elt F) → (⟨S16x1x1024x1024, .f32⟩ : BufTy).Contents (Elt F)),
    ternary main_v55 main_v1 main_call10_v1 main_v59 (select : (⟨S16x1x1024x1024, .i1⟩ : BufTy).Contents (Elt F) → (⟨S16x1x1024x1024, .f32⟩ : BufTy).Contents (Elt F) → (⟨S16x1x1024x1024, .f32⟩ : BufTy).Contents (Elt F) → (⟨S16x1x1024x1024, .f32⟩ : BufTy).Contents (Elt F)),
    nullary main_cst_34 (constant S_ .f32 0x00000000#32),
    binary main_v59 main_cst_34 main_v60 ((fun x v => Host.reduceAdd x v reducesTo_S16x1x1024x1024_S_d0_1_2_3 h_S_) : (⟨S16x1x1024x1024, .f32⟩ : BufTy).Contents (Elt F) → (⟨S_, .f32⟩ : BufTy).Contents (Elt F) → (⟨S_, .f32⟩ : BufTy).Contents (Elt F)),
    nullary main_c_35 (constantI S_ 32 1#32),
    binary main_v58 main_c_35 main_v61 (maxsi : (⟨S_, .i32⟩ : BufTy).Contents (Elt F) → (⟨S_, .i32⟩ : BufTy).Contents (Elt F) → (⟨S_, .i32⟩ : BufTy).Contents (Elt F)),
    unary main_v61 main_v62 (sitofp .f32 : (⟨S_, .i32⟩ : BufTy).Contents (Elt F) → (⟨S_, .f32⟩ : BufTy).Contents (Elt F)),
    nullary main_c_36 (constantI S_ 32 0#32),
    binary main_v58 main_c_36 main_v63 (cmpi .eq : (⟨S_, .i32⟩ : BufTy).Contents (Elt F) → (⟨S_, .i32⟩ : BufTy).Contents (Elt F) → (⟨S_, .i1⟩ : BufTy).Contents (Elt F)),
    binary main_v60 main_v62 main_v64 (Host.divf : (⟨S_, .f32⟩ : BufTy).Contents (Elt F) → (⟨S_, .f32⟩ : BufTy).Contents (Elt F) → (⟨S_, .f32⟩ : BufTy).Contents (Elt F)),
    nullary main_cst_37 (constant S_ .f32 0x00000000#32),
    unary main_cst_37 main_call11_v0 (id : (⟨S_, .f32⟩ : BufTy).Contents (Elt F) → (⟨S_, .f32⟩ : BufTy).Contents (Elt F)),
    ternary main_v63 main_call11_v0 main_v64 main_v65 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    nullary main_cst_38 (constant S_ .f32 0x3E4CCCCD#32),
    binary main_v65 main_cst_38 main_v66 (mulf : (⟨S_, .f32⟩ : BufTy).Contents (Elt F) → (⟨S_, .f32⟩ : BufTy).Contents (Elt F) → (⟨S_, .f32⟩ : BufTy).Contents (Elt F)),
    nullary main_cst_39 (constant S_ .f32 0x3F000000#32),
    unary main_cst_39 main_v67 (broadcastInDim S16x1x1024x1024 ![] bcast_S_S16x1x1024x1024 : (⟨S_, .f32⟩ : BufTy).Contents (Elt F) → (⟨S16x1x1024x1024, .f32⟩ : BufTy).Contents (Elt F)),
    binary main_arg1 main_v67 main_v68 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    nullary main_cst_40 (constant S_ .f32 0x3F800000#32),
    unary main_cst_40 main_v69 (broadcastInDim S16x1x1024x1024 ![] bcast_S_S16x1x1024x1024 : (⟨S_, .f32⟩ : BufTy).Contents (Elt F) → (⟨S16x1x1024x1024, .f32⟩ : BufTy).Contents (Elt F)),
    binary main_arg1 main_v69 main_v70 (cmpf .ole : (⟨S16x1x1024x1024, .f32⟩ : BufTy).Contents (Elt F) → (⟨S16x1x1024x1024, .f32⟩ : BufTy).Contents (Elt F) → (⟨S16x1x1024x1024, .i1⟩ : BufTy).Contents (Elt F)),
    binary main_v68 main_v70 main_v71 (andi : (⟨S16x1x1024x1024, .i1⟩ : BufTy).Contents (Elt F) → (⟨S16x1x1024x1024, .i1⟩ : BufTy).Contents (Elt F) → (⟨S16x1x1024x1024, .i1⟩ : BufTy).Contents (Elt F)),
    nullary main_c_41 (constantI S_ 32 4#32),
    unary main_c_41 main_call12_v0 ((broadcastInDim S16x1x1024x1024 ![] bcast_S_S16x1x1024x1024) : (⟨S_, .i32⟩ : BufTy).Contents (Elt F) → (⟨S16x1x1024x1024, .i32⟩ : BufTy).Contents (Elt F)),
    ternary main_v71 main_call12_v0 main_v56 main_v72 (select : (⟨S16x1x1024x1024, .i1⟩ : BufTy).Contents (Elt F) → (⟨S16x1x1024x1024, .i32⟩ : BufTy).Contents (Elt F) → (⟨S16x1x1024x1024, .i32⟩ : BufTy).Contents (Elt F) → (⟨S16x1x1024x1024, .i32⟩ : BufTy).Contents (Elt F)),
    unary main_v71 main_v73 ((extui 32 · natLt_1_32) : (⟨S16x1x1024x1024, .i1⟩ : BufTy).Contents (Elt F) → (⟨S16x1x1024x1024, .i32⟩ : BufTy).Contents (Elt F)),
    nullary main_c_42 (constantI S_ 32 0#32),
    binary main_v73 main_c_42 main_v74 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    nullary main_cst_43 (constant S_ .f32 0x00000000#32),
    unary main_cst_43 main_call13_v0 (id : (⟨S_, .f32⟩ : BufTy).Contents (Elt F) → (⟨S_, .f32⟩ : BufTy).Contents (Elt F)),
    unary main_call13_v0 main_call13_v1 ((broadcastInDim S16x1x1024x1024 ![] bcast_S_S16x1x1024x1024) : (⟨S_, .f32⟩ : BufTy).Contents (Elt F) → (⟨S16x1x1024x1024, .f32⟩ : BufTy).Contents (Elt F)),
    ternary main_v71 main_v1 main_call13_v1 main_v75 (select : (⟨S16x1x1024x1024, .i1⟩ : BufTy).Contents (Elt F) → (⟨S16x1x1024x1024, .f32⟩ : BufTy).Contents (Elt F) → (⟨S16x1x1024x1024, .f32⟩ : BufTy).Contents (Elt F) → (⟨S16x1x1024x1024, .f32⟩ : BufTy).Contents (Elt F)),
    nullary main_cst_44 (constant S_ .f32 0x00000000#32),
    binary main_v75 main_cst_44 main_v76 ((fun x v => Host.reduceAdd x v reducesTo_S16x1x1024x1024_S_d0_1_2_3 h_S_) : (⟨S16x1x1024x1024, .f32⟩ : BufTy).Contents (Elt F) → (⟨S_, .f32⟩ : BufTy).Contents (Elt F) → (⟨S_, .f32⟩ : BufTy).Contents (Elt F)),
    nullary main_c_45 (constantI S_ 32 1#32),
    binary main_v74 main_c_45 main_v77 (maxsi : (⟨S_, .i32⟩ : BufTy).Contents (Elt F) → (⟨S_, .i32⟩ : BufTy).Contents (Elt F) → (⟨S_, .i32⟩ : BufTy).Contents (Elt F)),
    unary main_v77 main_v78 (sitofp .f32 : (⟨S_, .i32⟩ : BufTy).Contents (Elt F) → (⟨S_, .f32⟩ : BufTy).Contents (Elt F)),
    nullary main_c_46 (constantI S_ 32 0#32),
    binary main_v74 main_c_46 main_v79 (cmpi .eq : (⟨S_, .i32⟩ : BufTy).Contents (Elt F) → (⟨S_, .i32⟩ : BufTy).Contents (Elt F) → (⟨S_, .i1⟩ : BufTy).Contents (Elt F)),
    binary main_v76 main_v78 main_v80 (Host.divf : (⟨S_, .f32⟩ : BufTy).Contents (Elt F) → (⟨S_, .f32⟩ : BufTy).Contents (Elt F) → (⟨S_, .f32⟩ : BufTy).Contents (Elt F)),
    nullary main_cst_47 (constant S_ .f32 0x00000000#32),
    unary main_cst_47 main_call14_v0 (id : (⟨S_, .f32⟩ : BufTy).Contents (Elt F) → (⟨S_, .f32⟩ : BufTy).Contents (Elt F)),
    ternary main_v79 main_call14_v0 main_v80 main_v81 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    nullary main_cst_48 (constant S_ .f32 0x3E4CCCCD#32),
    binary main_v81 main_cst_48 main_v82 (mulf : (⟨S_, .f32⟩ : BufTy).Contents (Elt F) → (⟨S_, .f32⟩ : BufTy).Contents (Elt F) → (⟨S_, .f32⟩ : BufTy).Contents (Elt F)),
    nullary main_cst_49 (constant S_ .f32 0x00000000#32),
    binary main_cst_49 main_v18 main_v83 (addf : (⟨S_, .f32⟩ : BufTy).Contents (Elt F) → (⟨S_, .f32⟩ : BufTy).Contents (Elt F) → (⟨S_, .f32⟩ : BufTy).Contents (Elt F)),
    binary main_v83 main_v34 main_v84 (addf : (⟨S_, .f32⟩ : BufTy).Contents (Elt F) → (⟨S_, .f32⟩ : BufTy).Contents (Elt F) → (⟨S_, .f32⟩ : BufTy).Contents (Elt F)),
    binary main_v84 main_v50 main_v85 (addf : (⟨S_, .f32⟩ : BufTy).Contents (Elt F) → (⟨S_, .f32⟩ : BufTy).Contents (Elt F) → (⟨S_, .f32⟩ : BufTy).Contents (Elt F)),
    binary main_v85 main_v66 main_v86 (addf : (⟨S_, .f32⟩ : BufTy).Contents (Elt F) → (⟨S_, .f32⟩ : BufTy).Contents (Elt F) → (⟨S_, .f32⟩ : BufTy).Contents (Elt F)),
    binary main_v86 main_v82 main_v87 (addf : (⟨S_, .f32⟩ : BufTy).Contents (Elt F) → (⟨S_, .f32⟩ : BufTy).Contents (Elt F) → (⟨S_, .f32⟩ : BufTy).Contents (Elt F)),
    unary main_v72 main_v88 (sitofp .f32 : (⟨S16x1x1024x1024, .i32⟩ : BufTy).Contents (Elt F) → (⟨S16x1x1024x1024, .f32⟩ : BufTy).Contents (Elt F)),
    nullary main_cst_50 (constant S_ .f32 0x40000000#32),
    unary main_cst_50 main_v89 (broadcastInDim S16x1x1024x1024 ![] bcast_S_S16x1x1024x1024 : (⟨S_, .f32⟩ : BufTy).Contents (Elt F) → (⟨S16x1x1024x1024, .f32⟩ : BufTy).Contents (Elt F)),
    binary main_v89 main_v88 main_v90 (mulf : (⟨S16x1x1024x1024, .f32⟩ : BufTy).Contents (Elt F) → (⟨S16x1x1024x1024, .f32⟩ : BufTy).Contents (Elt F) → (⟨S16x1x1024x1024, .f32⟩ : BufTy).Contents (Elt F)),
    nullary main_cst_51 (constant S_ .f32 0x40800000#32),
    unary main_cst_51 main_v91 (broadcastInDim S16x1x1024x1024 ![] bcast_S_S16x1x1024x1024 : (⟨S_, .f32⟩ : BufTy).Contents (Elt F) → (⟨S16x1x1024x1024, .f32⟩ : BufTy).Contents (Elt F)),
    binary main_v90 main_v91 main_v92 (Host.divf : (⟨S16x1x1024x1024, .f32⟩ : BufTy).Contents (Elt F) → (⟨S16x1x1024x1024, .f32⟩ : BufTy).Contents (Elt F) → (⟨S16x1x1024x1024, .f32⟩ : BufTy).Contents (Elt F)),
    nullary main_cst_52 (constant S_ .f32 0x3F800000#32),
    unary main_cst_52 main_v93 (broadcastInDim S16x1x1024x1024 ![] bcast_S_S16x1x1024x1024 : (⟨S_, .f32⟩ : BufTy).Contents (Elt F) → (⟨S16x1x1024x1024, .f32⟩ : BufTy).Contents (Elt F)),
    binary main_v92 main_v93 main_v94 (subf : (⟨S16x1x1024x1024, .f32⟩ : BufTy).Contents (Elt F) → (⟨S16x1x1024x1024, .f32⟩ : BufTy).Contents (Elt F) → (⟨S16x1x1024x1024, .f32⟩ : BufTy).Contents (Elt F)),
    unary main_v18 main_v95 (broadcastInDim S1 ![] bcast_S_S1 : (⟨S_, .f32⟩ : BufTy).Contents (Elt F) → (⟨S1, .f32⟩ : BufTy).Contents (Elt F)),
    unary main_v34 main_v96 (broadcastInDim S1 ![] bcast_S_S1 : (⟨S_, .f32⟩ : BufTy).Contents (Elt F) → (⟨S1, .f32⟩ : BufTy).Contents (Elt F)),
    unary main_v50 main_v97 (broadcastInDim S1 ![] bcast_S_S1 : (⟨S_, .f32⟩ : BufTy).Contents (Elt F) → (⟨S1, .f32⟩ : BufTy).Contents (Elt F)),
    unary main_v66 main_v98 (broadcastInDim S1 ![] bcast_S_S1 : (⟨S_, .f32⟩ : BufTy).Contents (Elt F) → (⟨S1, .f32⟩ : BufTy).Contents (Elt F)),
    unary main_v82 main_v99 (broadcastInDim S1 ![] bcast_S_S1 : (⟨S_, .f32⟩ : BufTy).Contents (Elt F) → (⟨S1, .f32⟩ : BufTy).Contents (Elt F)),
    nary ![main_v95, main_v96, main_v97, main_v98, main_v99] main_v100 (fun u => concatenate S5 0 [⟨S1, u 0⟩, ⟨S1, u 1⟩, ⟨S1, u 2⟩, ⟨S1, u 3⟩, ⟨S1, u 4⟩] concatenates_S1_S1_S1_S1_S1_S5_d0) ]

set_option maxRecDepth 8192 in
theorem ops_eq : (ops (F := F)) = opsP := rfl

/-- The contents after a line are the contents after its tail from the contents after its head. -/
theorem after_split (k : ℕ) (l : List (HloOp τ sig (Elt F))) (V : Valuation τ sig (Elt F)) :
    after l V = after (l.drop k) (after (l.take k) V) := by
  conv_lhs => rw [← List.take_append_drop k l]
  exact StableHlo.after_append _ _ _

/-- A buffer's contents under a valuation, at its array type. -/
abbrev img (W : Valuation τ sig (Elt F)) (b : Ref sig .tc) := W (Proc.devRef .tc b)

/-! ## The six stretches, each over arbitrary contents before it -/

set_option maxHeartbeats 1000000 in
/-- Class 0's stretch also computes |P - R| and starts the class image. -/
theorem stretch0 (W : Valuation τ sig (Elt F)) :
    after (List.take 34 (opsP (F := F))) W (Proc.devRef .tc main_arg0) = img W main_arg0
    ∧ after (List.take 34 (opsP (F := F))) W (Proc.devRef .tc main_arg1) = img W main_arg1
    ∧ after (List.take 34 (opsP (F := F))) W (Proc.devRef .tc main_v1) = Host.absf (subf (img W main_arg0) (img W main_arg1))
    ∧ after (List.take 34 (opsP (F := F))) W (Proc.devRef .tc main_v8)
        = select (bandV 0xBF800000#32 0x3F800000#32 (img W main_arg1)) (splatI 0#32) (splatI 0#32)
    ∧ after (List.take 34 (opsP (F := F))) W (Proc.devRef .tc main_v18)
        = lossD 0xBF800000#32 0x3F800000#32 (Host.absf (subf (img W main_arg0) (img W main_arg1))) (img W main_arg1) := by
  delta opsP
  simp only [List.take_succ_cons, List.take_zero]
  refine ⟨?_, ?_, ?_, ?_, ?_⟩ <;> after_results_simp <;> rfl

set_option maxHeartbeats 1000000 in
/-- Class 1's stretch. -/
theorem stretch1 (W : Valuation τ sig (Elt F)) :
    after (List.take 30 (List.drop 34 (opsP (F := F)))) W (Proc.devRef .tc main_arg0) = img W main_arg0
    ∧ after (List.take 30 (List.drop 34 (opsP (F := F)))) W (Proc.devRef .tc main_arg1) = img W main_arg1
    ∧ after (List.take 30 (List.drop 34 (opsP (F := F)))) W (Proc.devRef .tc main_v1) = img W main_v1
    ∧ after (List.take 30 (List.drop 34 (opsP (F := F)))) W (Proc.devRef .tc main_v18) = img W main_v18
    ∧ after (List.take 30 (List.drop 34 (opsP (F := F)))) W (Proc.devRef .tc main_v24)
        = select (bandV 0xBF800000#32 0xBF000000#32 (img W main_arg1)) (splatI 1#32) (img W main_v8)
    ∧ after (List.take 30 (List.drop 34 (opsP (F := F)))) W (Proc.devRef .tc main_v34)
        = lossD 0xBF800000#32 0xBF000000#32 (img W main_v1) (img W main_arg1) := by
  delta opsP
  simp only [List.take_succ_cons, List.take_zero, List.drop_succ_cons, List.drop_zero]
  refine ⟨?_, ?_, ?_, ?_, ?_, ?_⟩ <;> after_results_simp <;> rfl

set_option maxHeartbeats 1000000 in
/-- Class 2's stretch. -/
theorem stretch2 (W : Valuation τ sig (Elt F)) :
    after (List.take 30 (List.drop 30 (List.drop 34 (opsP (F := F))))) W (Proc.devRef .tc main_arg0) = img W main_arg0
    ∧ after (List.take 30 (List.drop 30 (List.drop 34 (opsP (F := F))))) W (Proc.devRef .tc main_arg1) = img W main_arg1
    ∧ after (List.take 30 (List.drop 30 (List.drop 34 (opsP (F := F))))) W (Proc.devRef .tc main_v1) = img W main_v1
    ∧ after (List.take 30 (List.drop 30 (List.drop 34 (opsP (F := F))))) W (Proc.devRef .tc main_v18) = img W main_v18
    ∧ after (List.take 30 (List.drop 30 (List.drop 34 (opsP (F := F))))) W (Proc.devRef .tc main_v34) = img W main_v34
    ∧ after (List.take 30 (List.drop 30 (List.drop 34 (opsP (F := F))))) W (Proc.devRef .tc main_v40)
        = select (bandV 0xBF000000#32 0x00000000#32 (img W main_arg1)) (splatI 2#32) (img W main_v24)
    ∧ after (List.take 30 (List.drop 30 (List.drop 34 (opsP (F := F))))) W (Proc.devRef .tc main_v50)
        = lossD 0xBF000000#32 0x00000000#32 (img W main_v1) (img W main_arg1) := by
  delta opsP
  simp only [List.take_succ_cons, List.take_zero, List.drop_succ_cons, List.drop_zero]
  refine ⟨?_, ?_, ?_, ?_, ?_, ?_, ?_⟩ <;> after_results_simp <;> rfl

set_option maxHeartbeats 1000000 in
/-- Class 3's stretch. -/
theorem stretch3 (W : Valuation τ sig (Elt F)) :
    after (List.take 30 (List.drop 30 (List.drop 30 (List.drop 34 (opsP (F := F)))))) W (Proc.devRef .tc main_arg0) = img W main_arg0
    ∧ after (List.take 30 (List.drop 30 (List.drop 30 (List.drop 34 (opsP (F := F)))))) W (Proc.devRef .tc main_arg1) = img W main_arg1
    ∧ after (List.take 30 (List.drop 30 (List.drop 30 (List.drop 34 (opsP (F := F)))))) W (Proc.devRef .tc main_v1) = img W main_v1
    ∧ after (List.take 30 (List.drop 30 (List.drop 30 (List.drop 34 (opsP (F := F)))))) W (Proc.devRef .tc main_v18) = img W main_v18
    ∧ after (List.take 30 (List.drop 30 (List.drop 30 (List.drop 34 (opsP (F := F)))))) W (Proc.devRef .tc main_v34) = img W main_v34
    ∧ after (List.take 30 (List.drop 30 (List.drop 30 (List.drop 34 (opsP (F := F)))))) W (Proc.devRef .tc main_v50) = img W main_v50
    ∧ after (List.take 30 (List.drop 30 (List.drop 30 (List.drop 34 (opsP (F := F)))))) W (Proc.devRef .tc main_v56)
        = select (bandV 0x00000000#32 0x3F000000#32 (img W main_arg1)) (splatI 3#32) (img W main_v40)
    ∧ after (List.take 30 (List.drop 30 (List.drop 30 (List.drop 34 (opsP (F := F)))))) W (Proc.devRef .tc main_v66)
        = lossD 0x00000000#32 0x3F000000#32 (img W main_v1) (img W main_arg1) := by
  delta opsP
  simp only [List.take_succ_cons, List.take_zero, List.drop_succ_cons, List.drop_zero]
  refine ⟨?_, ?_, ?_, ?_, ?_, ?_, ?_, ?_⟩ <;> after_results_simp <;> rfl

set_option maxHeartbeats 1000000 in
/-- Class 4's stretch. -/
theorem stretch4 (W : Valuation τ sig (Elt F)) :
    after (List.take 30 (List.drop 30 (List.drop 30 (List.drop 30 (List.drop 34 (opsP (F := F))))))) W (Proc.devRef .tc main_arg0) = img W main_arg0
    ∧ after (List.take 30 (List.drop 30 (List.drop 30 (List.drop 30 (List.drop 34 (opsP (F := F))))))) W (Proc.devRef .tc main_arg1) = img W main_arg1
    ∧ after (List.take 30 (List.drop 30 (List.drop 30 (List.drop 30 (List.drop 34 (opsP (F := F))))))) W (Proc.devRef .tc main_v18) = img W main_v18
    ∧ after (List.take 30 (List.drop 30 (List.drop 30 (List.drop 30 (List.drop 34 (opsP (F := F))))))) W (Proc.devRef .tc main_v34) = img W main_v34
    ∧ after (List.take 30 (List.drop 30 (List.drop 30 (List.drop 30 (List.drop 34 (opsP (F := F))))))) W (Proc.devRef .tc main_v50) = img W main_v50
    ∧ after (List.take 30 (List.drop 30 (List.drop 30 (List.drop 30 (List.drop 34 (opsP (F := F))))))) W (Proc.devRef .tc main_v66) = img W main_v66
    ∧ after (List.take 30 (List.drop 30 (List.drop 30 (List.drop 30 (List.drop 34 (opsP (F := F))))))) W (Proc.devRef .tc main_v72)
        = select (bandV 0x3F000000#32 0x3F800000#32 (img W main_arg1)) (splatI 4#32) (img W main_v56)
    ∧ after (List.take 30 (List.drop 30 (List.drop 30 (List.drop 30 (List.drop 34 (opsP (F := F))))))) W (Proc.devRef .tc main_v82)
        = lossD 0x3F000000#32 0x3F800000#32 (img W main_v1) (img W main_arg1) := by
  delta opsP
  simp only [List.take_succ_cons, List.take_zero, List.drop_succ_cons, List.drop_zero]
  refine ⟨?_, ?_, ?_, ?_, ?_, ?_, ?_, ?_⟩ <;> after_results_simp <;> rfl

set_option maxHeartbeats 1000000 in
/-- The tail but for its last operation: the five losses added from 0, each as a [1] vector, and the mask image
    from the class image. -/
theorem stretchT (W : Valuation τ sig (Elt F)) :
    after (List.take 21 (List.drop 30 (List.drop 30 (List.drop 30 (List.drop 30 (List.drop 34 (opsP (F := F)))))))) W (Proc.devRef .tc main_arg0) = img W main_arg0
    ∧ after (List.take 21 (List.drop 30 (List.drop 30 (List.drop 30 (List.drop 30 (List.drop 34 (opsP (F := F)))))))) W (Proc.devRef .tc main_arg1) = img W main_arg1
    ∧ after (List.take 21 (List.drop 30 (List.drop 30 (List.drop 30 (List.drop 30 (List.drop 34 (opsP (F := F)))))))) W (Proc.devRef .tc main_v87)
        = addf (addf (addf (addf (addf (constant S_ .f32 0x00000000#32) (img W main_v18)) (img W main_v34)) (img W main_v50))
            (img W main_v66)) (img W main_v82)
    ∧ after (List.take 21 (List.drop 30 (List.drop 30 (List.drop 30 (List.drop 30 (List.drop 34 (opsP (F := F)))))))) W (Proc.devRef .tc main_v94)
        = subf (Host.divf (mulf (splat 0x40000000#32) (sitofp .f32 (img W main_v72))) (splat 0x40800000#32)) (splat 0x3F800000#32)
    ∧ after (List.take 21 (List.drop 30 (List.drop 30 (List.drop 30 (List.drop 30 (List.drop 34 (opsP (F := F)))))))) W (Proc.devRef .tc main_v95) = broadcastInDim S1 ![] bcast_S_S1 (img W main_v18)
    ∧ after (List.take 21 (List.drop 30 (List.drop 30 (List.drop 30 (List.drop 30 (List.drop 34 (opsP (F := F)))))))) W (Proc.devRef .tc main_v96) = broadcastInDim S1 ![] bcast_S_S1 (img W main_v34)
    ∧ after (List.take 21 (List.drop 30 (List.drop 30 (List.drop 30 (List.drop 30 (List.drop 34 (opsP (F := F)))))))) W (Proc.devRef .tc main_v97) = broadcastInDim S1 ![] bcast_S_S1 (img W main_v50)
    ∧ after (List.take 21 (List.drop 30 (List.drop 30 (List.drop 30 (List.drop 30 (List.drop 34 (opsP (F := F)))))))) W (Proc.devRef .tc main_v98) = broadcastInDim S1 ![] bcast_S_S1 (img W main_v66)
    ∧ after (List.take 21 (List.drop 30 (List.drop 30 (List.drop 30 (List.drop 30 (List.drop 34 (opsP (F := F)))))))) W (Proc.devRef .tc main_v99) = broadcastInDim S1 ![] bcast_S_S1 (img W main_v82) := by
  delta opsP
  simp only [List.take_succ_cons, List.take_zero, List.drop_succ_cons, List.drop_zero]
  refine ⟨?_, ?_, ?_, ?_, ?_, ?_, ?_, ?_, ?_⟩ <;> after_results_simp <;> rfl

set_option maxHeartbeats 1000000 in
/-- The last operation: the five [1] vectors concatenated. -/
theorem stretchC (W : Valuation τ sig (Elt F)) :
    after (List.drop 21 (List.drop 30 (List.drop 30 (List.drop 30 (List.drop 30 (List.drop 34 (opsP (F := F)))))))) W (Proc.devRef .tc main_arg0) = img W main_arg0
    ∧ after (List.drop 21 (List.drop 30 (List.drop 30 (List.drop 30 (List.drop 30 (List.drop 34 (opsP (F := F)))))))) W (Proc.devRef .tc main_arg1) = img W main_arg1
    ∧ after (List.drop 21 (List.drop 30 (List.drop 30 (List.drop 30 (List.drop 30 (List.drop 34 (opsP (F := F)))))))) W (Proc.devRef .tc main_v87) = img W main_v87
    ∧ after (List.drop 21 (List.drop 30 (List.drop 30 (List.drop 30 (List.drop 30 (List.drop 34 (opsP (F := F)))))))) W (Proc.devRef .tc main_v94) = img W main_v94
    ∧ after (List.drop 21 (List.drop 30 (List.drop 30 (List.drop 30 (List.drop 30 (List.drop 34 (opsP (F := F)))))))) W (Proc.devRef .tc main_v100)
        = concatenate S5 0
            [⟨S1, img W main_v95⟩, ⟨S1, img W main_v96⟩, ⟨S1, img W main_v97⟩, ⟨S1, img W main_v98⟩, ⟨S1, img W main_v99⟩]
            concatenates_S1_S1_S1_S1_S1_S5_d0 := by
  delta opsP
  simp only [List.take_succ_cons, List.take_zero, List.drop_succ_cons, List.drop_zero]
  refine ⟨?_, ?_, ?_, ?_, ?_⟩ <;> after_results_simp <;> rfl

/-! ## The whole line -/

/-- The three results and the two images after the whole line, from any contents V. -/
theorem results (V : Valuation τ sig (Elt F)) :
    after (opsP (F := F)) V (Proc.devRef .tc main_v87) = refTot (F := F) (img V main_arg0) (img V main_arg1)
    ∧ after (opsP (F := F)) V (Proc.devRef .tc main_v100) = refVec (F := F) (img V main_arg0) (img V main_arg1)
    ∧ after (opsP (F := F)) V (Proc.devRef .tc main_v94) = refMask (F := F) (img V main_arg1)
    ∧ after (opsP (F := F)) V (Proc.devRef .tc main_arg0) = img V main_arg0
    ∧ after (opsP (F := F)) V (Proc.devRef .tc main_arg1) = img V main_arg1 := by
  rw [after_split 34 (opsP (F := F)) V]
  obtain ⟨a0, a1, a2, a3, a4⟩ := stretch0 V
  generalize after (List.take 34 (opsP (F := F))) V = W1 at *
  rw [after_split 30 (List.drop 34 (opsP (F := F))) W1]
  obtain ⟨b0, b1, b2, b3, b4, b5⟩ := stretch1 W1
  generalize after (List.take 30 (List.drop 34 (opsP (F := F)))) W1 = W2 at *
  rw [after_split 30 (List.drop 30 (List.drop 34 (opsP (F := F)))) W2]
  obtain ⟨c0, c1, c2, c3, c4, c5, c6⟩ := stretch2 W2
  generalize after (List.take 30 (List.drop 30 (List.drop 34 (opsP (F := F))))) W2 = W3 at *
  rw [after_split 30 (List.drop 30 (List.drop 30 (List.drop 34 (opsP (F := F))))) W3]
  obtain ⟨d0, d1, d2, d3, d4, d5, d6, d7⟩ := stretch3 W3
  generalize after (List.take 30 (List.drop 30 (List.drop 30 (List.drop 34 (opsP (F := F)))))) W3 = W4 at *
  rw [after_split 30 (List.drop 30 (List.drop 30 (List.drop 30 (List.drop 34 (opsP (F := F)))))) W4]
  obtain ⟨e0, e1, e2, e3, e4, e5, e6, e7⟩ := stretch4 W4
  generalize after (List.take 30 (List.drop 30 (List.drop 30 (List.drop 30 (List.drop 34 (opsP (F := F))))))) W4 = W5 at *
  rw [after_split 21 (List.drop 30 (List.drop 30 (List.drop 30 (List.drop 30 (List.drop 34 (opsP (F := F))))))) W5]
  obtain ⟨t0, t1, t2, t3, t4, t5, t6, t7, t8⟩ := stretchT W5
  generalize after (List.take 21 (List.drop 30 (List.drop 30 (List.drop 30 (List.drop 30 (List.drop 34 (opsP (F := F)))))))) W5 = W6 at *
  obtain ⟨u0, u1, u2, u3, u4⟩ := stretchC W6
  dsimp only [img] at *
  -- what the live buffers hold before the tail, in terms of the two images
  have k0 := e2; rw [d3, c3, b3, a4] at k0
  have k1 := e3; rw [d4, c4, b5, a2, a1] at k1
  have k2 := e4; rw [d5, c6, b2, b1, a2, a1] at k2
  have k3 := e5; rw [d7, c2, c1, b2, b1, a2, a1] at k3
  have k4 := e7; rw [d2, d1, c2, c1, b2, b1, a2, a1] at k4
  have kc := e6; rw [d6, c5, b4, a3, d1, c1, b1, a1] at kc
  refine ⟨?_, ?_, ?_, ?_, ?_⟩
  · rw [u2, t2, k0, k1, k2, k3, k4]
    unfold refTot
    rfl
  · rw [u4, t4, t5, t6, t7, t8, k0, k1, k2, k3, k4]
    unfold refVec
    rfl
  · rw [u3, t3, kc]
    unfold refMask
    rfl
  · rw [u0, t0, e0, d0, c0, b0, a0]
  · rw [u1, t1, e1, d1, c1, b1, a1]

/-- Every weakly fair execution of the second program terminates with its results at those functions of the
    images' launch contents, and the images unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = refTot (F := F) (m ((c.tc : Thread nD τ).loc main_arg0)) (m ((c.tc : Thread nD τ).loc main_arg1))
      ∧ r.2.mem ((c.tc : Thread nD τ).loc main_v100)
        = refVec (F := F) (m ((c.tc : Thread nD τ).loc main_arg0)) (m ((c.tc : Thread nD τ).loc main_arg1))
      ∧ r.2.mem ((c.tc : Thread nD τ).loc main_v94) = refMask (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v87).trans (ops_eq (F := F) ▸ (results _).1), (h c main_v100).trans (ops_eq (F := F) ▸ (results _).2.1),
      (h c main_v94).trans (ops_eq (F := F) ▸ (results _).2.2.1), (h c main_arg0).trans (ops_eq (F := F) ▸ (results _).2.2.2.1),
      (h c main_arg1).trans (ops_eq (F := F) ▸ (results _).2.2.2.2)⟩)
    (run_seq scopedRefs_eq scopedSems_eq defs main (fun _ => ops) main_eq (fun _ => ops_sub) m ρ)

end Cert.ReferenceIdeal.MCL

end
-- ==== Proof.lean ====
/-
  The two programs compute the same class-masked L1 loss.

  Both read two images P and R of shape [16, 1, 1024, 1024]. A pixel is in class j when R's value lies in the
  j-th of five closed intervals; a class's loss is (0 if the class is empty, else the sum of |P - R| over the
  class divided by max(its size, 1)) · 0.2. The results are the total of the five class losses, the vector of
  them, and the mask image 2 · (last class containing the pixel) / 4 - 1.

  The first program is one kernel over 32 row blocks — per block it counts each class with 0/1 floats and sums
  the masked differences, accumulating both in two [1, 128] rows across the grid, and writes the block of the
  mask image — followed by a few host operations on lanes 0 … 4 of the two rows. The second program is host
  operations on the whole images, counting with 32-bit integers. Over the extended reals:
    · the mask images agree pixel by pixel (the same operations on the same pixel);
    · a class's count, added as 0/1 extended reals block by block, is the class's cardinality, and so is the
      32-bit count (2^24 pixels do not wrap); the class's sum is the same sum in another order;
    · the class loss is the same from either count;
    · the five class losses reduced from 0 are the five added from 0 left to right.
  The idealization rewrote nothing, so it preserves the kernel trivially; the three runs terminate without fault
  and leave the images unchanged.
-/
import proofs.«152754_j2808908612055_1_alg».proof.Defs
import proofs.«152754_j2808908612055_1_alg».proof.Proof.Gen.Kernel
import proofs.«152754_j2808908612055_1_alg».proof.Proof.Gen.Kernel.Skeleton
import proofs.«152754_j2808908612055_1_alg».proof.Proof.Gen.Kernel.Launch
import proofs.«152754_j2808908612055_1_alg».proof.Proof.Gen.Kernel.Points
import proofs.«152754_j2808908612055_1_alg».proof.Proof.Gen.Kernel.Frame
import proofs.«152754_j2808908612055_1_alg».proof.Proof.Gen.KernelIdeal
import proofs.«152754_j2808908612055_1_alg».proof.Proof.Gen.KernelIdeal.Skeleton
import proofs.«152754_j2808908612055_1_alg».proof.Proof.Gen.KernelIdeal.Launch
import proofs.«152754_j2808908612055_1_alg».proof.Proof.Gen.KernelIdeal.Points
import proofs.«152754_j2808908612055_1_alg».proof.Proof.Gen.KernelIdeal.Frame
import proofs.«152754_j2808908612055_1_alg».proof.Proof.Gen.ReferenceIdeal
import proofs.«152754_j2808908612055_1_alg».proof.Proof.Gen.Pre_finite_inputs
import proofs.«152754_j2808908612055_1_alg».proof.Proof.KValue
import proofs.«152754_j2808908612055_1_alg».proof.Proof.RefValue
import proofs.«152754_j2808908612055_1_alg».proof.Proof.RefNamed
import Idealize.ShloMosaic.Adequacy
import Idealize.ShloMosaic.Init

noncomputable section

namespace Cert.Proof

open Idealize.ShloMosaic Idealize.ShloMosaic.TcCoe Idealize.ShloMosaic.ValueIdx Idealize.SL.Sem

namespace MCLClaims

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.1, (h c).2.2.2.2⟩)
    (Cert.ReferenceIdeal.MCL.run_named (F := Ideal) m ρ)

theorem preserves : Cert.preserves_Kernel_KernelIdeal := trivial

open Cert.KernelIdeal Cert.KernelIdeal.Gen in
/-- Over the extended reals both programs end with the total loss, the five class losses and the mask image of
    images that agree. -/
theorem algebraic : Cert.algebraic_KernelIdeal_ReferenceIdeal := by
  intro m ρ m' ρ' _ hagree
  refine ⟨fun c => Cert.KernelIdeal.MCL.lossTot (F := Ideal) ((dats m 0 c).arrAt 3 cfg0.N) ((dats m 0 c).arrAt 4 cfg0.N),
    fun c => Cert.KernelIdeal.MCL.lossVec (F := Ideal) ((dats m 0 c).arrAt 3 cfg0.N) ((dats m 0 c).arrAt 4 cfg0.N),
    fun c => (dats m 0 c).arrAt 2 cfg0.N, Cert.KernelIdeal.MCL.run_named (F := Ideal) m ρ, ?_⟩
  refine (θ_run Cert.ReferenceIdeal.defs _ _).mono (fun _ h c => ?_) (Cert.ReferenceIdeal.MCL.run_named (F := Ideal) m' ρ')
  obtain ⟨h0, h1, h2, h3, h4⟩ := h c
  have e0 := (hagree c).1
  have e1 := (hagree c).2
  have hP : Cert.KernelIdeal.MCL.Parr m c = m ((c.tc : Thread nD τ).loc main_arg0) := V_main_arg0 m c
  have hR : Cert.KernelIdeal.MCL.Rarr m c = m ((c.tc : Thread nD τ).loc main_arg1) := V_main_arg1 m c
  refine ⟨h0.trans ?_, h1.trans ?_, h2.trans ?_, h3, h4⟩
  · rw [e0, e1]
    funext i
    rw [eq_ix0 i]
    exact (Cert.ReferenceIdeal.MCL.refTot_apply _ _).trans
      ((congrArg₂ Cert.MCL.totalLoss hP hR).symm.trans (Cert.KernelIdeal.MCL.kernel_total m c).symm)
  · rw [e0, e1]
    funext i
    rw [eq_ix1 i]
    exact (Cert.ReferenceIdeal.MCL.refVec_apply _ _ _).trans
      ((congrArg₂ (Cert.MCL.classLoss _) hP hR).symm.trans (Cert.KernelIdeal.MCL.kernel_class m c _).symm)
  · show _ = (dats m 0 c).arrAt 2 cfg0.N
    rw [Cert.KernelIdeal.MCL.final_mask, e1]
    funext x
    show Cert.ReferenceIdeal.MCL.refMask (F := Ideal) (m ((c.tc : Thread nD τ).loc main_arg1)) x
      = Cert.MCL.maskVal (V m c main_arg1 x)
    rw [V_main_arg1 m c]
    exact Cert.ReferenceIdeal.MCL.refMask_apply _ x

end MCLClaims

theorem claim : Cert.Claim := ⟨Cert.Kernel.Gen.facts, Cert.KernelIdeal.Gen.facts, Cert.ReferenceIdeal.Gen.facts, Cert.Pre_finite_inputs.Gen.facts,
  MCLClaims.frame_k, MCLClaims.frame_ki, MCLClaims.frame_ri, MCLClaims.preserves, MCLClaims.algebraic⟩

end Cert.Proof

end
